-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S2048x512 : Shape := ⟨2, ![2048, 512]⟩
abbrev S2048 : Shape := ⟨1, ![2048]⟩
abbrev S512x2048 : Shape := ⟨2, ![512, 2048]⟩
abbrev S512 : Shape := ⟨1, ![512]⟩
abbrev S256x2048 : Shape := ⟨2, ![256, 2048]⟩
abbrev S256 : Shape := ⟨1, ![256]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x2048 .f32) (main_arg8 : FVec F S256 .f32) (main_v33 : IVec S_ 1) : IVec S_ 1 :=
  let main_v34 : FVec F S256x2048 .f32 := Host.absf main_arg7
  let main_cst_12 : FVec F S_ .f32 := constant S_ .f32 0x7F800000#32
  let main_v35 : FVec F S256x2048 .f32 := broadcastInDim S256x2048 ![] bcast_S_S256x2048 main_cst_12
  let main_v36 : IVec S256x2048 1 := cmpf .olt main_v34 main_v35
  let main_c_13 : IVec S_ 1 := constantI S_ 1 1#1
  let main_v37 : IVec S_ 1 := (fun x v => Host.reduce IntOp.andi x v reducesTo_S256x2048_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S512 .f32) (main_arg5 : FVec F S2048x512 .f32) (main_arg6 : FVec F S2048 .f32) (main_arg7 : FVec F S256x2048 .f32) (main_arg8 : FVec F S256 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S8x2048x512 .f32) (main_arg1 : FVec F S2048x512 .f32) (main_arg2 : FVec F S2048 .f32) (main_arg3 : FVec F S512x2048 .f32) (main_arg4 : FVec F S512 .f32) (main_arg5 : FVec F S2048x512 .f32) (main_arg6 : FVec F S2048 .f32) (main_arg7 : FVec F S256x2048 .f32) (main_arg8 : FVec F S256 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_arg6 main_arg7 main_arg8 main_v13 main_v16
-- ==== Kernel.lean ====
abbrev S8x2048x512 : Shape := ⟨3, ![8, 2048, 512]⟩
abbrev S2048x512 : Shape := ⟨2, ![2048, 512]⟩
abbrev S2048 : Shape := ⟨1, ![2048]⟩
abbrev S512x2048 : Shape := ⟨2, ![512, 2048]⟩
abbrev S512 : Shape := ⟨1, ![512]⟩
abbrev S256x2048 : Shape := ⟨2, ![256, 2048]⟩
abbrev S256 : Shape := ⟨1, ![256]⟩
abbrev S16384x512 : Shape := ⟨2, ![16384, 512]⟩
abbrev S2048x256 : Shape := ⟨2, ![2048, 256]⟩
abbrev S1x2048 : Shape := ⟨2, ![1, 2048]⟩
abbrev S1x512 : Shape := ⟨2, ![1, 512]⟩
abbrev S1x256 : Shape := ⟨2, ![1, 256]⟩
abbrev S16384x128 : Shape := ⟨2, ![16384, 128]⟩
abbrev S512x512 : Shape := ⟨2, ![512, 512]⟩
abbrev S512x128 : Shape := ⟨2, ![512, 128]⟩
abbrev S512x256 : Shape := ⟨2, ![512, 256]⟩
abbrev S8x2048x128 : Shape := ⟨3, ![8, 2048, 128]⟩
abbrev S1x512x128 : Shape := ⟨3, ![1, 512, 128]⟩
abbrev S1x2048x128 : Shape := ⟨3, ![1, 2048, 128]⟩
abbrev S1x2048x512 : Shape := ⟨3, ![1, 2048, 512]⟩
abbrev S1x512x512 : Shape := ⟨3, ![1, 512, 512]⟩
abbrev S2048x128 : Shape := ⟨2, ![2048, 128]⟩
abbrev S512x1 : Shape := ⟨2, ![512, 1]⟩

abbrev nBuf : Space → Nat
  | .hbm => 29
  | .vmem => 24
  | .smem => 0
  | _ => 0

abbrev bufTy : (tb : Table) → Fin (tcTables nBuf tb) → BufTy
  | .hbm, ⟨0, _⟩ => ⟨S8x2048x512, .f32⟩
  | .hbm, ⟨1, _⟩ => ⟨S2048x512, .f32⟩
  | .hbm, ⟨2, _⟩ => ⟨S2048, .f32⟩
  | .hbm, ⟨3, _⟩ => ⟨S512x2048, .f32⟩
  | .hbm, ⟨4, _⟩ => ⟨S512, .f32⟩
  | .hbm, ⟨5, _⟩ => ⟨S2048x512, .f32⟩
  | .hbm, ⟨6, _⟩ => ⟨S2048, .f32⟩
  | .hbm, ⟨7, _⟩ => ⟨S256x2048, .f32⟩
  | .hbm, ⟨8, _⟩ => ⟨S256, .f32⟩
  | .hbm, ⟨9, _⟩ => ⟨S16384x512, .f32⟩
  | .hbm, ⟨10, _⟩ => ⟨S2048x512, .bf16⟩
  | .hbm, ⟨11, _⟩ => ⟨S512x2048, .bf16⟩
  | .hbm, ⟨12, _⟩ => ⟨S512x2048, .bf16⟩
  | .hbm, ⟨13, _⟩ => ⟨S2048x512, .bf16⟩
  | .hbm, ⟨14, _⟩ => ⟨S2048x512, .bf16⟩
  | .hbm, ⟨15, _⟩ => ⟨S512x2048, .bf16⟩
  | .hbm, ⟨16, _⟩ => ⟨S256x2048, .bf16⟩
  | .hbm, ⟨17, _⟩ => ⟨S2048x256, .bf16⟩
  | .hbm, ⟨18, _⟩ => ⟨S1x2048, .f32⟩
  | .hbm, ⟨19, _⟩ => ⟨S1x512, .f32⟩
  | .hbm, ⟨20, _⟩ => ⟨S1x2048, .f32⟩
  | .hbm, ⟨21, _⟩ => ⟨S1x256, .f32⟩
  | .hbm, ⟨22, _⟩ => ⟨S16384x128, .bf16⟩
  | .hbm, ⟨23, _⟩ => ⟨S16384x128, .bf16⟩
  | .hbm, ⟨24, _⟩ => ⟨S16384x512, .bf16⟩
  | .hbm, ⟨25, _⟩ => ⟨S8x2048x128, .bf16⟩
  | .hbm, ⟨26, _⟩ => ⟨S8x2048x128, .bf16⟩
  | .hbm, ⟨27, _⟩ => ⟨S8x2048x512, .bf16⟩
  | .hbm, ⟨28, _⟩ => ⟨S8x2048x512, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S1x2048, .f32⟩
  | .local _ .vmem, ⟨4, _⟩ => ⟨S2048x512, .bf16⟩
  | .local _ .vmem, ⟨5, _⟩ => ⟨S1x512, .f32⟩
  | .local _ .vmem, ⟨6, _⟩ => ⟨S512x2048, .bf16⟩
  | .local _ .vmem, ⟨7, _⟩ => ⟨S1x2048, .f32⟩
  | .local _ .vmem, ⟨8, _⟩ => ⟨S2048x256, .bf16⟩
  | .local _ .vmem, ⟨9, _⟩ => ⟨S1x256, .f32⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x512, .bf16⟩
  | .local _ .vmem, ⟨15, _⟩ => ⟨S512x512, .bf16⟩
  | .local _ .vmem, ⟨16, _⟩ => ⟨S1x512x128, .bf16⟩
  | .local _ .vmem, ⟨17, _⟩ => ⟨S1x512x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x2048x512, .bf16⟩
  | .local _ .vmem, ⟨21, _⟩ => ⟨S1x2048x512, .bf16⟩
  | .local _ .vmem, ⟨22, _⟩ => ⟨S1x512x512, .f32⟩
  | .local _ .vmem, ⟨23, _⟩ => ⟨S1x512x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S8x2048x512_S16384x512 : S8x2048x512.ShapeCasts S16384x512
  bitsLt_bf16_f32 : FTy.bits .bf16 < FTy.bits .f32
  transposes_S2048x512_S512x2048_1_0 : S2048x512.Transposes [1, 0] S512x2048
  transposes_S512x2048_S2048x512_1_0 : S512x2048.Transposes [1, 0] S2048x512
  transposes_S256x2048_S2048x256_1_0 : S256x2048.Transposes [1, 0] S2048x256
  shapeCasts_S2048_S1x2048 : S2048.ShapeCasts S1x2048
  shapeCasts_S512_S1x512 : S512.ShapeCasts S1x512
  shapeCasts_S256_S1x256 : S256.ShapeCasts S1x256
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  slices_S512x256_o0_0_S512x128 : S512x256.Slices ![0, 0] S512x128
  slices_S512x256_o0_128_S512x128 : S512x256.Slices ![0, 128] S512x128
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  packedbf16_S512x512_S512x512_0_0 : (Rect.unit (s := S512x512) ![0, 0] S512x512.size inb_S512x512_S512x512_0_0).PackedRows (EltTy.packing .bf16)
  shapeCasts_S16384x128_S8x2048x128 : S16384x128.ShapeCasts S8x2048x128
  shapeCasts_S16384x512_S8x2048x512 : S16384x512.ShapeCasts S8x2048x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S512x2048_S512 : S512x2048.Reduces [1] S512
  shapeCasts_S512_S512x1 : S512.ShapeCasts S512x1
  slices_S512x2048_o0_0_S512x512 : S512x2048.Slices ![0, 0] S512x512
  broadcasts_S512x1_S512x512 : S512x1.Broadcasts S512x512
  reduces_S512x512_S512 : S512x512.Reduces [1] S512
  slices_S2048x512_o0_0_S512x512 : S2048x512.Slices ![0, 0] S512x512
  slices_S512x2048_o0_512_S512x512 : S512x2048.Slices ![0, 512] S512x512
  slices_S2048x512_o512_0_S512x512 : S2048x512.Slices ![512, 0] S512x512
  slices_S512x2048_o0_1024_S512x512 : S512x2048.Slices ![0, 1024] S512x512
  slices_S2048x512_o1024_0_S512x512 : S2048x512.Slices ![1024, 0] S512x512
  slices_S512x2048_o0_1536_S512x512 : S512x2048.Slices ![0, 1536] S512x512
  slices_S2048x512_o1536_0_S512x512 : S2048x512.Slices ![1536, 0] S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x512_S512x2048_S512x2048_1_0_0_1_n_n_wf : DotDims.WF S512x512 S512x2048 S512x2048 [1] [0] [0] [1] [] []
  dot_S512x2048_S2048x512_S512x512_1_0_0_1_n_n_wf : DotDims.WF S512x2048 S2048x512 S512x512 [1] [0] [0] [1] [] []
  dot_S512x2048_S2048x256_S512x256_1_0_0_1_n_n_wf : DotDims.WF S512x2048 S2048x256 S512x256 [1] [0] [0] [1] [] []
  dot_S512x128_S2048x128_S512x2048_1_1_0_0_n_n_wf : DotDims.WF S512x128 S2048x128 S512x2048 [1] [1] [0] [0] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x256.size a
  hwx0_7 : ∀ i : grid0.Coords, EltTy.bits .bf16 = 32 ∨ (Rect.block (s := S2048x256) S2048x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S16384x128.size a
  hwx0_9 : ∀ i : grid0.Coords, EltTy.bits .bf16 = 32 ∨ (Rect.block (s := S16384x128) S512x128.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S16384x128.size a
  hwx0_10 : ∀ i : grid0.Coords, EltTy.bits .bf16 = 32 ∨ (Rect.block (s := S16384x128) S512x128.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S16384x512.size a
  hwx0_11 : ∀ i : grid0.Coords, EltTy.bits .bf16 = 32 ∨ (Rect.block (s := S16384x512) S512x512.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S8x2048x128.size a
  hwx1_0 : ∀ i : grid1.Coords, EltTy.bits .bf16 = 32 ∨ (Rect.block (s := S8x2048x128) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S8x2048x128.size a
  hwx1_1 : ∀ i : grid1.Coords, EltTy.bits .bf16 = 32 ∨ (Rect.block (s := S8x2048x128) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x512.size a ≤ S8x2048x512.size a
  hwx1_2 : ∀ i : grid1.Coords, EltTy.bits .bf16 = 32 ∨ (Rect.block (s := S8x2048x512) S1x2048x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x512.size a ≤ S8x2048x512.size a
  hwx1_3 : ∀ i : grid1.Coords, EltTy.bits .f32 = 32 ∨ (Rect.block (s := S8x2048x512) S1x512x512.size (cc1_transform_3 i) (hinb1_3 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S2048x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13_0) S512x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v13_1) S512x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v13_2) S512x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v15) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x2048x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x512 : Shape := ⟨3, ![8, 2048, 512]⟩
abbrev S2048x512 : Shape := ⟨2, ![2048, 512]⟩
abbrev S2048 : Shape := ⟨1, ![2048]⟩
abbrev S512x2048 : Shape := ⟨2, ![512, 2048]⟩
abbrev S512 : Shape := ⟨1, ![512]⟩
abbrev S256x2048 : Shape := ⟨2, ![256, 2048]⟩
abbrev S256 : Shape := ⟨1, ![256]⟩
abbrev S8x2048x2048 : Shape := ⟨3, ![8, 2048, 2048]⟩
abbrev S1x1x2048 : Shape := ⟨3, ![1, 1, 2048]⟩
abbrev S_ : Shape := ⟨0, ![]⟩
abbrev S1x1x512 : Shape := ⟨3, ![1, 1, 512]⟩
abbrev S8x2048x256 : Shape := ⟨3, ![8, 2048, 256]⟩
abbrev S1x1x256 : Shape := ⟨3, ![1, 1, 256]⟩
abbrev S8x2048x128 : Shape := ⟨3, ![8, 2048, 128]⟩
abbrev S8x2048 : Shape := ⟨2, ![8, 2048]⟩
abbrev S8x2048x1 : Shape := ⟨3, ![8, 2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S2048x512, .f32⟩
  | .hbm, ⟨2, _⟩ => ⟨S2048, .f32⟩
  | .hbm, ⟨3, _⟩ => ⟨S512x2048, .f32⟩
  | .hbm, ⟨4, _⟩ => ⟨S512, .f32⟩
  | .hbm, ⟨5, _⟩ => ⟨S2048x512, .f32⟩
  | .hbm, ⟨6, _⟩ => ⟨S2048, .f32⟩
  | .hbm, ⟨7, _⟩ => ⟨S256x2048, .f32⟩
  | .hbm, ⟨8, _⟩ => ⟨S256, .f32⟩
  | .hbm, ⟨9, _⟩ => ⟨S8x2048x2048, .f32⟩
  | .hbm, ⟨10, _⟩ => ⟨S1x1x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048x512, .f32⟩
  | .hbm, ⟨17, _⟩ => ⟨S1x1x512, .f32⟩
  | .hbm, ⟨18, _⟩ => ⟨S8x2048x512, .f32⟩
  | .hbm, ⟨19, _⟩ => ⟨S8x2048x512, .f32⟩
  | .hbm, ⟨20, _⟩ => ⟨S8x2048x2048, .f32⟩
  | .hbm, ⟨21, _⟩ => ⟨S1x1x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S8x2048x256, .f32⟩
  | .hbm, ⟨28, _⟩ => ⟨S1x1x256, .f32⟩
  | .hbm, ⟨29, _⟩ => ⟨S8x2048x256, .f32⟩
  | .hbm, ⟨30, _⟩ => ⟨S8x2048x256, .f32⟩
  | .hbm, ⟨31, _⟩ => ⟨S8x2048x128, .f32⟩
  | .hbm, ⟨32, _⟩ => ⟨S8x2048x128, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S8x2048, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S8x2048x2048, .f32⟩
  | .hbm, ⟨47, _⟩ => ⟨S8x2048x2048, .f32⟩
  | .hbm, ⟨48, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_cst : Ref sig .tc := ⟨.hbm, 24, rfl⟩
abbrev main_call1_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  bcast_S_S8x2048x2048 : S_.BroadcastsInDim S8x2048x2048 (![] : Fin 0 → Fin S8x2048x2048.rank)
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  slices_S8x2048x256_S8x2048x128_0_0_0 : S8x2048x256.Slices ![0, 0, 0] S8x2048x128
  slices_S8x2048x256_S8x2048x128_0_0_128 : S8x2048x256.Slices ![0, 0, 128] S8x2048x128
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S2048x512_S8x2048x2048_2_1_01_0_n_n_wf : DotDims.WF S8x2048x512 S2048x512 S8x2048x2048 [2] [1] [0, 1] [0] [] []
  dot_S8x2048x2048_S512x2048_S8x2048x512_2_1_01_0_n_n_wf : DotDims.WF S8x2048x2048 S512x2048 S8x2048x512 [2] [1] [0, 1] [0] [] []
  dot_S8x2048x2048_S256x2048_S8x2048x256_2_1_01_0_n_n_wf : DotDims.WF S8x2048x2048 S256x2048 S8x2048x256 [2] [1] [0, 1] [0] [] []
  dot_S8x2048x128_S8x2048x128_S8x2048x2048_2_2_1_1_0_0_wf : DotDims.WF S8x2048x128 S8x2048x128 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S2048x512_S8x2048x2048_2_1_01_0_n_n : DotDims S8x2048x512 S2048x512 S8x2048x2048 where
  lhsContracting := [2]
  rhsContracting := [1]
  lhsNonContracting := [0, 1]
  rhsNonContracting := [0]
  lhsBatch := []
  rhsBatch := []
  wf := dot_S8x2048x512_S2048x512_S8x2048x2048_2_1_01_0_n_n_wf
def dot_S8x2048x2048_S512x2048_S8x2048x512_2_1_01_0_n_n : DotDims S8x2048x2048 S512x2048 S8x2048x512 where
  lhsContracting := [2]
  rhsContracting := [1]
  lhsNonContracting := [0, 1]
  rhsNonContracting := [0]
  lhsBatch := []
  rhsBatch := []
  wf := dot_S8x2048x2048_S512x2048_S8x2048x512_2_1_01_0_n_n_wf
def dot_S8x2048x2048_S256x2048_S8x2048x256_2_1_01_0_n_n : DotDims S8x2048x2048 S256x2048 S8x2048x256 where
  lhsContracting := [2]
  rhsContracting := [1]
  lhsNonContracting := [0, 1]
  rhsNonContracting := [0]
  lhsBatch := []
  rhsBatch := []
  wf := dot_S8x2048x2048_S256x2048_S8x2048x256_2_1_01_0_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.Spec.lean ====
/-
  What the two programs compute, as formulas over the extended reals, with no program in sight.

  Two perceptrons feed an unscaled softmax attention. For a batch b, a row n and the inputs
  x : [8, 2048, 512], W1 : [2048, 512], b1 : [2048], W2 : [O, 2048], b2 : [O], one perceptron is
      relu(x · W1ᵀ + b1) · W2ᵀ + b2                                  (`hidden`, `perceptron`).
  The first (O = 512) gives the values E; the second (O = 256) gives the keys (its columns 0..127)
  and the queries (its columns 128..255). With  s(n, m) = Σ_k Q(n, k) · K(m, k),  M(n) = max_m s(n, m)
  (from -∞),  p(n, m) = exp(s(n, m) - M(n))  and  L(n) = Σ_m p(n, m), the attention's row n is
      ( Σ_m p(n, m) · E(m, ·) ) / L(n)                               (`attnSumThenDivide`)
  when the weighted sum is normalised once at the end, and
      Σ_m ( p(n, m) / L(n) ) · E(m, ·)                               (`attnDivideThenSum`)
  when every weight is normalised before the sum. The two agree wherever p, E and L are real numbers
  and L ≠ 0 (Proof/Law.lean); on the extended reals in general they do not.

  The same perceptron over flat rows, weights already transposed and biases as one-row matrices, is
  `perceptronFlat`; `perceptronFlat_eq` says it is the perceptron of the unflattened, untransposed
  arguments.
-/
import Idealize.ShloMosaic.PureOps.Ideal
import Idealize.ShloMosaic.Lib.ValueIdx

noncomputable section

open scoped BigOperators

namespace Cert.Spec

open Idealize.ShloMosaic Idealize.ShloMosaic.ValueIdx

/-- Arrays of extended reals over literal extents. -/
abbrev Arr1 (a : Nat) := (⟨1, ![a]⟩ : Shape).Idx → EReal
abbrev Arr2 (a b : Nat) := (⟨2, ![a, b]⟩ : Shape).Idx → EReal
abbrev Arr3 (a b c : Nat) := (⟨3, ![a, b, c]⟩ : Shape).Idx → EReal

/-! ## The perceptrons -/

/-- The hidden layer: relu of row (b, n) of x against row h of W, plus the bias. -/
def hidden (x : Arr3 8 2048 512) (W : Arr2 2048 512) (bias : Arr1 2048) (b : Fin 8) (n : Fin 2048) (h : Fin 2048) : EReal :=
  max ((∑ d : Fin 512, x (ix3 b n d) * W (ix2 h d)) + bias (ix1 h)) 0

/-- A perceptron's output column o: the hidden layer against row o of W2, plus the second bias. -/
def perceptron {O : Nat} (x : Arr3 8 2048 512) (W1 : Arr2 2048 512) (b1 : Arr1 2048) (W2 : Arr2 O 2048) (b2 : Arr1 O)
    (b : Fin 8) (n : Fin 2048) (o : Fin O) : EReal :=
  (∑ h : Fin 2048, hidden x W1 b1 b n h * W2 (ix2 o h)) + b2 (ix1 o)

/-- The same over flat rows r = 2048·b + n, with W1 and W2 transposed and the biases as one-row matrices. -/
def perceptronFlat {O : Nat} (X : Arr2 16384 512) (W1t : Arr2 512 2048) (b1 : Arr2 1 2048) (W2t : Arr2 2048 O) (b2 : Arr2 1 O)
    (r : Fin 16384) (o : Fin O) : EReal :=
  (∑ h : Fin 2048, max ((∑ d : Fin 512, X (ix2 r d) * W1t (ix2 d h)) + b1 (ix2 0 h)) 0 * W2t (ix2 h o)) + b2 (ix2 0 o)

/-- Row r of the flat form is row (r / 2048, r % 2048) of the perceptron, when the flat arguments are the reshaped and
    transposed ones. -/
theorem perceptronFlat_eq {O : Nat} (x : Arr3 8 2048 512) (W1 : Arr2 2048 512) (b1 : Arr1 2048) (W2 : Arr2 O 2048) (b2 : Arr1 O)
    (X : Arr2 16384 512) (W1t : Arr2 512 2048) (b1r : Arr2 1 2048) (W2t : Arr2 2048 O) (b2r : Arr2 1 O)
    (hX : ∀ (b : Fin 8) (n : Fin 2048) (d : Fin 512), X (ix2 ⟨2048 * b.val + n.val, by omega⟩ d) = x (ix3 b n d))
    (hW1 : ∀ (d : Fin 512) (h : Fin 2048), W1t (ix2 d h) = W1 (ix2 h d))
    (hb1 : ∀ h : Fin 2048, b1r (ix2 0 h) = b1 (ix1 h))
    (hW2 : ∀ (h : Fin 2048) (o : Fin O), W2t (ix2 h o) = W2 (ix2 o h))
    (hb2 : ∀ o : Fin O, b2r (ix2 0 o) = b2 (ix1 o))
    (b : Fin 8) (n : Fin 2048) (o : Fin O) :
    perceptronFlat X W1t b1r W2t b2r ⟨2048 * b.val + n.val, by omega⟩ o = perceptron x W1 b1 W2 b2 b n o := by
  unfold perceptronFlat perceptron hidden
  rw [hb2 o]
  congr 1
  refine Finset.sum_congr rfl fun h _ => ?_
  rw [hW2 h o, hb1 h]
  congr 3
  exact Finset.sum_congr rfl fun d _ => by rw [hX b n d, hW1 d h]

/-! ## The attention -/

section Attention

variable (Q K : Fin 8 → Fin 2048 → Fin 128 → EReal) (E : Fin 8 → Fin 2048 → Fin 512 → EReal)

/-- Query row n against key row m. -/
def score (b : Fin 8) (n m : Fin 2048) : EReal := ∑ k : Fin 128, Q b n k * K b m k

/-- The largest score of row n, from -∞. -/
def rowMax (b : Fin 8) (n : Fin 2048) : EReal := (Finset.univ : Finset (Fin 2048)).fold max ⊥ (fun m => score Q K b n m)

/-- The unnormalised weight of key m for query n. -/
def weight (b : Fin 8) (n m : Fin 2048) : EReal := Ideal.exp (score Q K b n m - rowMax Q K b n)

/-- The weights' total. -/
def denom (b : Fin 8) (n : Fin 2048) : EReal := ∑ m : Fin 2048, weight Q K b n m

/-- Weighted sum of the value rows, divided once by the weights' total. -/
def attnSumThenDivide (b : Fin 8) (n : Fin 2048) (d : Fin 512) : EReal :=
  Ideal.div (∑ m : Fin 2048, weight Q K b n m * E b m d) (denom Q K b n)

/-- Every weight divided by the total, then the weighted sum of the value rows. -/
def attnDivideThenSum (b : Fin 8) (n : Fin 2048) (d : Fin 512) : EReal :=
  ∑ m : Fin 2048, Ideal.div (weight Q K b n m) (denom Q K b n) * E b m d

end Attention

/-! ## The whole computation, of the nine arguments -/

section Whole

variable (x : Arr3 8 2048 512) (We1 : Arr2 2048 512) (be1 : Arr1 2048) (We2 : Arr2 512 2048) (be2 : Arr1 512)
  (Wk1 : Arr2 2048 512) (bk1 : Arr1 2048) (Wk2 : Arr2 256 2048) (bk2 : Arr1 256)

/-- The values: the first perceptron. -/
def values : Fin 8 → Fin 2048 → Fin 512 → EReal := fun b n d => perceptron x We1 be1 We2 be2 b n d
/-- The keys: columns 0..127 of the second perceptron. -/
def keys : Fin 8 → Fin 2048 → Fin 128 → EReal := fun b n k => perceptron x Wk1 bk1 Wk2 bk2 b n ⟨k.val, by omega⟩
/-- The queries: columns 128..255 of the second perceptron. -/
def queries : Fin 8 → Fin 2048 → Fin 128 → EReal := fun b n k => perceptron x Wk1 bk1 Wk2 bk2 b n ⟨128 + k.val, by omega⟩

/-- The result when the weighted sum is normalised at the end. -/
def resultSumThenDivide : Arr3 8 2048 512 := fun i =>
  attnSumThenDivide (queries x Wk1 bk1 Wk2 bk2) (keys x Wk1 bk1 Wk2 bk2) (values x We1 be1 We2 be2) (i 0) (i 1) (i 2)

/-- The result when every weight is normalised before the sum. -/
def resultDivideThenSum : Arr3 8 2048 512 := fun i =>
  attnDivideThenSum (queries x Wk1 bk1 Wk2 bk2) (keys x Wk1 bk1 Wk2 bk2) (values x We1 be1 We2 be2) (i 0) (i 1) (i 2)

end Whole

end Cert.Spec

end
-- ==== Proof.Law.lean ====
/-
  Where every argument is a real number the two orders of normalising agree.

  On the extended reals a quotient cannot in general be moved across a sum. Here it can: every quantity that enters the
  attention is a real number (sums, products and maxima of real numbers are real; the row maximum is a maximum over a
  nonempty index set of real numbers; the exponential of a real number is a positive real number), and the weights'
  total, a sum of positive real numbers over a nonempty index set, is a nonzero real number. Division by a nonzero
  real number is multiplication by its reciprocal, and in the real numbers  (Σ p·e)·c = Σ (p·c)·e.
-/
import proofs.«406603_j84327387890091_3_alg».proof.Proof.Spec
import Mathlib.Data.EReal.Basic
import Mathlib.Data.EReal.Operations
import Mathlib.Data.Finset.Fold
import Mathlib.Algebra.Order.BigOperators.Group.Finset
import Mathlib.Analysis.SpecialFunctions.Exp

noncomputable section

open scoped BigOperators
open Idealize.ShloMosaic Idealize.ShloMosaic.ValueIdx

namespace Cert.Spec

/-- An extended real that is a real number. -/
def IsReal (v : EReal) : Prop := ∃ r : ℝ, v = (r : EReal)

/-! ## Real numbers are closed under the operations used -/

namespace IsReal

theorem coe (r : ℝ) : IsReal (r : EReal) := ⟨r, rfl⟩

theorem zero : IsReal 0 := ⟨0, EReal.coe_zero.symm⟩

theorem add {a b : EReal} (ha : IsReal a) (hb : IsReal b) : IsReal (a + b) := by
  obtain ⟨r, rfl⟩ := ha
  obtain ⟨s, rfl⟩ := hb
  exact ⟨r + s, (EReal.coe_add r s).symm⟩

theorem mul {a b : EReal} (ha : IsReal a) (hb : IsReal b) : IsReal (a * b) := by
  obtain ⟨r, rfl⟩ := ha
  obtain ⟨s, rfl⟩ := hb
  exact ⟨r * s, (EReal.coe_mul r s).symm⟩

theorem sub {a b : EReal} (ha : IsReal a) (hb : IsReal b) : IsReal (a - b) := by
  obtain ⟨r, rfl⟩ := ha
  obtain ⟨s, rfl⟩ := hb
  exact ⟨r - s, (EReal.coe_sub r s).symm⟩

theorem max {a b : EReal} (ha : IsReal a) (hb : IsReal b) : IsReal (max a b) := by
  obtain ⟨r, rfl⟩ := ha
  obtain ⟨s, rfl⟩ := hb
  exact ⟨Max.max r s, (EReal.coe_strictMono.monotone.map_max (a := r) (b := s)).symm⟩

theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsReal

/-- The coercion of a finite sum of real numbers is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A maximum from -∞ over real numbers is -∞ or a real number. -/
theorem fold_max_bot_or_isReal {ι : Type*} (s : Finset ι) (f : ι → EReal) (h : ∀ i ∈ s, IsReal (f i)) :
    s.fold Max.max ⊥ f = ⊥ ∨ IsReal (s.fold Max.max ⊥ f) := by
  classical
  induction s using Finset.induction_on with
  | empty => exact Or.inl Finset.fold_empty
  | insert a s ha ih =>
    refine Or.inr ?_
    rw [Finset.fold_insert ha]
    rcases ih (fun i hi => h i (Finset.mem_insert_of_mem hi)) with h0 | h1
    · rw [h0, max_bot_right]
      exact h a (Finset.mem_insert_self a s)
    · exact (h a (Finset.mem_insert_self a s)).max h1

/-- A maximum from -∞ over a nonempty set of real numbers is a real number. -/
theorem isReal_fold_max {ι : Type*} (s : Finset ι) (hs : s.Nonempty) (f : ι → EReal) (h : ∀ i ∈ s, IsReal (f i)) :
    IsReal (s.fold Max.max ⊥ f) := by
  rcases fold_max_bot_or_isReal s f h with h0 | h1
  · exfalso
    obtain ⟨a, ha⟩ := hs
    obtain ⟨r, hr⟩ := h a ha
    have hle : f a ≤ s.fold Max.max ⊥ f := (Finset.le_fold_max (f a)).2 (Or.inr ⟨a, ha, le_rfl⟩)
    rw [h0, hr] at hle
    exact EReal.coe_ne_bot r (le_bot_iff.1 hle)
  · exact h1

/-! ## The law, over the real numbers -/

/-- With real weights p, real values e and a nonzero real total L:  (Σ p·e) / L = Σ (p / L)·e. -/
theorem div_sum_law {ι : Type*} [Fintype ι] (p e : ι → ℝ) (L : ℝ) (hL : L ≠ 0) :
    Ideal.div (∑ m, (p m : EReal) * (e m : EReal)) (L : EReal)
      = ∑ m, Ideal.div (p m : EReal) (L : EReal) * (e m : EReal) := by
  have hl : (∑ m, (p m : EReal) * (e m : EReal)) = ((∑ m, p m * e m : ℝ) : EReal) := by
    rw [coe_finset_sum]
    exact Finset.sum_congr rfl fun m _ => (EReal.coe_mul (p m) (e m)).symm
  have hr : (∑ m, Ideal.div (p m : EReal) (L : EReal) * (e m : EReal))
      = ((∑ m, p m * (1 / L) * e m : ℝ) : EReal) := by
    rw [coe_finset_sum]
    refine Finset.sum_congr rfl fun m _ => ?_
    rw [Ideal.div_coe hL, ← EReal.coe_mul, ← EReal.coe_mul]
  rw [hl, hr, Ideal.div_coe hL, ← EReal.coe_mul, Finset.sum_mul]
  refine congrArg _ (Finset.sum_congr rfl fun m _ => ?_)
  ring

/-! ## The perceptrons are real -/

theorem isReal_hidden (x : Arr3 8 2048 512) (W : Arr2 2048 512) (bias : Arr1 2048)
    (hx : ∀ i, IsReal (x i)) (hW : ∀ i, IsReal (W i)) (hb : ∀ i, IsReal (bias i))
    (b : Fin 8) (n : Fin 2048) (h : Fin 2048) : IsReal (hidden x W bias b n h) := by
  unfold hidden
  exact ((IsReal.sum _ _ fun d _ => (hx _).mul (hW _)).add (hb _)).max IsReal.zero

theorem isReal_perceptron {O : Nat} (x : Arr3 8 2048 512) (W1 : Arr2 2048 512) (b1 : Arr1 2048) (W2 : Arr2 O 2048)
    (b2 : Arr1 O) (hx : ∀ i, IsReal (x i)) (hW1 : ∀ i, IsReal (W1 i)) (hb1 : ∀ i, IsReal (b1 i))
    (hW2 : ∀ i, IsReal (W2 i)) (hb2 : ∀ i, IsReal (b2 i)) (b : Fin 8) (n : Fin 2048) (o : Fin O) :
    IsReal (perceptron x W1 b1 W2 b2 b n o) := by
  unfold perceptron
  exact (IsReal.sum _ _ fun h _ => (isReal_hidden x W1 b1 hx hW1 hb1 b n h).mul (hW2 _)).add (hb2 _)

/-! ## The attention over real queries, keys and values -/

section Attention

variable (Q K : Fin 8 → Fin 2048 → Fin 128 → EReal) (E : Fin 8 → Fin 2048 → Fin 512 → EReal)

theorem isReal_score (hQ : ∀ b n k, IsReal (Q b n k)) (hK : ∀ b n k, IsReal (K b n k)) (b : Fin 8) (n m : Fin 2048) :
    IsReal (score Q K b n m) := by
  unfold score
  exact IsReal.sum _ _ fun k _ => (hQ b n k).mul (hK b m k)

theorem isReal_rowMax (hQ : ∀ b n k, IsReal (Q b n k)) (hK : ∀ b n k, IsReal (K b n k)) (b : Fin 8) (n : Fin 2048) :
    IsReal (rowMax Q K b n) := by
  unfold rowMax
  exact isReal_fold_max _ ⟨⟨0, by decide⟩, Finset.mem_univ _⟩ _ fun m _ => isReal_score Q K hQ hK b n m

/-- Every weight is a positive real number. -/
theorem weight_eq_coe (hQ : ∀ b n k, IsReal (Q b n k)) (hK : ∀ b n k, IsReal (K b n k)) (b : Fin 8) (n m : Fin 2048) :
    ∃ p : ℝ, 0 < p ∧ weight Q K b n m = (p : EReal) := by
  obtain ⟨s, hs⟩ := isReal_score Q K hQ hK b n m
  obtain ⟨M, hM⟩ := isReal_rowMax Q K hQ hK b n
  refine ⟨Real.exp (s - M), Real.exp_pos _, ?_⟩
  unfold weight
  rw [hs, hM, ← EReal.coe_sub, Ideal.exp_coe]

/-- Over real queries, keys and values the two orders of normalising give the same row. -/
theorem attn_eq_of_real (hQ : ∀ b n k, IsReal (Q b n k)) (hK : ∀ b n k, IsReal (K b n k))
    (hE : ∀ b n d, IsReal (E b n d)) (b : Fin 8) (n : Fin 2048) (d : Fin 512) :
    attnSumThenDivide Q K E b n d = attnDivideThenSum Q K E b n d := by
  choose p hp hpw using fun m => weight_eq_coe Q K hQ hK b n m
  choose e he using fun m => hE b m d
  have hden : denom Q K b n = ((∑ m, p m : ℝ) : EReal) := by
    unfold denom
    rw [coe_finset_sum]
    exact Finset.sum_congr rfl fun m _ => hpw m
  have hL : (∑ m, p m) ≠ 0 :=
    (Finset.sum_pos (fun m _ => hp m) ⟨⟨0, by decide⟩, Finset.mem_univ _⟩).ne'
  have h1 : (∑ m, weight Q K b n m * E b m d) = ∑ m, (p m : EReal) * (e m : EReal) :=
    Finset.sum_congr rfl fun m _ => by rw [hpw m, he m]
  have h2 : (∑ m, Ideal.div (weight Q K b n m) (denom Q K b n) * E b m d)
      = ∑ m, Ideal.div (p m : EReal) ((∑ m, p m : ℝ) : EReal) * (e m : EReal) :=
    Finset.sum_congr rfl fun m _ => by rw [hpw m, he m, hden]
  unfold attnSumThenDivide attnDivideThenSum
  rw [h1, h2, hden]
  exact div_sum_law p e _ hL

end Attention

/-! ## The whole computation -/

/-- With real arguments: the weighted sum divided once by the weights' total is the sum weighted by the normalised
    weights. -/
theorem result_eq_of_real (x : Arr3 8 2048 512) (We1 : Arr2 2048 512) (be1 : Arr1 2048) (We2 : Arr2 512 2048) (be2 : Arr1 512)
    (Wk1 : Arr2 2048 512) (bk1 : Arr1 2048) (Wk2 : Arr2 256 2048) (bk2 : Arr1 256)
    (hx : ∀ i, IsReal (x i)) (hWe1 : ∀ i, IsReal (We1 i)) (hbe1 : ∀ i, IsReal (be1 i)) (hWe2 : ∀ i, IsReal (We2 i))
    (hbe2 : ∀ i, IsReal (be2 i)) (hWk1 : ∀ i, IsReal (Wk1 i)) (hbk1 : ∀ i, IsReal (bk1 i)) (hWk2 : ∀ i, IsReal (Wk2 i))
    (hbk2 : ∀ i, IsReal (bk2 i)) :
    resultSumThenDivide x We1 be1 We2 be2 Wk1 bk1 Wk2 bk2 = resultDivideThenSum x We1 be1 We2 be2 Wk1 bk1 Wk2 bk2 := by
  have hQ : ∀ b n k, IsReal (queries x Wk1 bk1 Wk2 bk2 b n k) := fun b n k =>
    isReal_perceptron x Wk1 bk1 Wk2 bk2 hx hWk1 hbk1 hWk2 hbk2 b n _
  have hK : ∀ b n k, IsReal (keys x Wk1 bk1 Wk2 bk2 b n k) := fun b n k =>
    isReal_perceptron x Wk1 bk1 Wk2 bk2 hx hWk1 hbk1 hWk2 hbk2 b n _
  have hE : ∀ b n d, IsReal (values x We1 be1 We2 be2 b n d) := fun b n d =>
    isReal_perceptron x We1 be1 We2 be2 hx hWe1 hbe1 hWe2 hbe2 b n d
  funext i
  unfold resultSumThenDivide resultDivideThenSum
  exact attn_eq_of_real _ _ _ hQ hK hE (i 0) (i 1) (i 2)

end Cert.Spec

end
-- ==== Proof.Finite.lean ====
/-
  The precondition says every input entry is finite; at the extended reals that makes every entry a real number.

  The printed predicate is a conjunction, argument by argument, of "every entry's absolute value is below +∞". An
  extended real whose absolute value max(x, -x) is below ⊤ is neither ⊤ nor ⊥, so it is a real number.
-/
import proofs.«406603_j84327387890091_3_alg».proof.Pre_finite_inputs
import proofs.«406603_j84327387890091_3_alg».proof.Proof.Law
import Idealize.ShloMosaic.Lib.ReduceAll
import Idealize.ShloMosaic.Lib.Affine
import Idealize.ShloMosaic.Lib.ValueIdx
import Idealize.ShloMosaic.PureOps.Ideal.Laws

noncomputable section

open Idealize.ShloMosaic Idealize.SL.Sem Idealize.ShloMosaic.ValueIdx

namespace Cert.Finite

open Cert.Spec Cert.Pre_finite_inputs

instance : Subsingleton S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value compares below +∞ is a real number. -/
theorem isReal_of_abs_lt (x : EReal)
    (h : FloatOps.cmpf (F := Ideal) (φ := .f32) .olt (FloatOps.absf x) (Ideal.ofBits .f32 0x7F800000#32) = 1#1) :
    IsReal x := by
  rw [inf_word] at h
  have h3 : BitVec.ofBool (decide (max x (-x) < (⊤ : EReal))) = 1#1 := h
  have h2 : max x (-x) < (⊤ : EReal) := by
    by_contra hn
    rw [decide_eq_false hn] at h3
    exact absurd h3 (by decide)
  induction x using EReal.rec with
  | bot => simp at h2
  | coe r => exact ⟨r, rfl⟩
  | top => simp at h2

variable [hP : Cert.Pre_finite_inputs.Facts]

/-- Under the precondition every entry of every argument is a real number. -/
theorem real_of_pre (a0 : FVec Ideal S8x2048x512 .f32) (a1 : FVec Ideal S2048x512 .f32) (a2 : FVec Ideal S2048 .f32)
    (a3 : FVec Ideal S512x2048 .f32) (a4 : FVec Ideal S512 .f32) (a5 : FVec Ideal S2048x512 .f32) (a6 : FVec Ideal S2048 .f32)
    (a7 : FVec Ideal S256x2048 .f32) (a8 : FVec Ideal S256 .f32)
    (h : Cert.Pre_finite_inputs.fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) := by
  have h0 := congrFun h ix0
  dsimp only [fn, fn_part1, fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => isReal_of_abs_lt _ (Host.reduce_andi_all _ _ _ _ _ e0 i),
    fun i => isReal_of_abs_lt _ (Host.reduce_andi_all _ _ _ _ _ e1 i),
    fun i => isReal_of_abs_lt _ (Host.reduce_andi_all _ _ _ _ _ e2 i),
    fun i => isReal_of_abs_lt _ (Host.reduce_andi_all _ _ _ _ _ e3 i),
    fun i => isReal_of_abs_lt _ (Host.reduce_andi_all _ _ _ _ _ e4 i),
    fun i => isReal_of_abs_lt _ (Host.reduce_andi_all _ _ _ _ _ e5 i),
    fun i => isReal_of_abs_lt _ (Host.reduce_andi_all _ _ _ _ _ e6 i),
    fun i => isReal_of_abs_lt _ (Host.reduce_andi_all _ _ _ _ _ e7 i),
    fun i => isReal_of_abs_lt _ (Host.reduce_andi_all _ _ _ _ _ e8 i)⟩

end Cert.Finite

end
-- ==== Proof.AttnArray.lean ====
/-
  The attention call's output array, read as one function of the three arrays the call finds on entry.
-/
import proofs.«406603_j84327387890091_3_alg».proof.Proof.Gen.KernelIdeal.Frame
import proofs.«406603_j84327387890091_3_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KernelIdeal.AttnArray

open Cert.KernelIdeal Cert.KernelIdeal.Gen Cert.Spec

/-! ## A sum over 2048 terms as four sums over 512 -/

/-- A sum over `Fin n` split at `a`: the first `a` terms, then the other `b`. -/
theorem sum_split {M : Type*} [AddCommMonoid M] (a b n : Nat) (h : a + b = n) (f : Fin n → M) :
    ∑ m : Fin n, f m = ∑ i : Fin a, f ⟨i.val, by omega⟩ + ∑ j : Fin b, f ⟨a + j.val, by omega⟩ := by
  subst h
  rw [Fin.sum_univ_add]
  rfl

/-- A sum over 2048 terms is the sum of its four quarters, associated to the left. -/
theorem sum_quarters {M : Type*} [AddCommMonoid M] (f : Fin 2048 → M) :
    ∑ m : Fin 2048, f m
      = ((∑ j : Fin 512, f ⟨j.val, by omega⟩ + ∑ j : Fin 512, f ⟨512 + j.val, by omega⟩)
          + ∑ j : Fin 512, f ⟨1024 + j.val, by omega⟩) + ∑ j : Fin 512, f ⟨1536 + j.val, by omega⟩ := by
  rw [sum_split 1536 512 2048 rfl f, sum_split 1024 512 1536 rfl (fun i => f ⟨i.val, by omega⟩),
    sum_split 512 512 1024 rfl (fun i : Fin 1024 => f ⟨i.val, by omega⟩)]

/-! ## The body's arithmetic at an index -/

section Payload

variable (x0 : Vec Ideal S1x512x128 .bf16) (x1 : Vec Ideal S1x2048x128 .bf16) (x2 : Vec Ideal S1x2048x512 .bf16)

theorem lhs_qk_0 (i : S512x2048.Idx) (κ : dot_S512x128_S2048x128_S512x2048_1_1_0_0_n_n.contr.Idx) :
    (dot_S512x128_S2048x128_S512x2048_1_1_0_0_n_n.lhsIdx i κ 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem lhs_qk_1 (i : S512x2048.Idx) (κ : dot_S512x128_S2048x128_S512x2048_1_1_0_0_n_n.contr.Idx) :
    (dot_S512x128_S2048x128_S512x2048_1_1_0_0_n_n.lhsIdx i κ 1).val = (κ ⟨0, by decide⟩).val :=
  dot_S512x128_S2048x128_S512x2048_1_1_0_0_n_n.lhsIdx_val_of_single rfl i κ
theorem rhs_qk_0 (i : S512x2048.Idx) (κ : dot_S512x128_S2048x128_S512x2048_1_1_0_0_n_n.contr.Idx) :
    (dot_S512x128_S2048x128_S512x2048_1_1_0_0_n_n.rhsIdx i κ 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem rhs_qk_1 (i : S512x2048.Idx) (κ : dot_S512x128_S2048x128_S512x2048_1_1_0_0_n_n.contr.Idx) :
    (dot_S512x128_S2048x128_S512x2048_1_1_0_0_n_n.rhsIdx i κ 1).val = (κ ⟨0, by decide⟩).val :=
  dot_S512x128_S2048x128_S512x2048_1_1_0_0_n_n.rhsIdx_val_of_single rfl i κ

/-- The score block at (q, m): query row q against key row m. -/
theorem score_block (q : Fin 512) (m : Fin 2048) :
    k1_pay3 x0 x1 (ix2 q m) = ∑ k : Fin 128, x0 (ix3 0 q k) * x1 (ix3 0 m k) := by
  unfold k1_pay3
  simp only [matmul]
  rw [Ideal.matmul_constant_zero_apply, ← Equiv.sum_comp (contrEquiv1 dot_S512x128_S2048x128_S512x2048_1_1_0_0_n_n 128 rfl rfl).symm]
  refine Finset.sum_congr rfl fun k _ => ?_
  have hk := contrEquiv1_symm_val dot_S512x128_S2048x128_S512x2048_1_1_0_0_n_n 128 rfl rfl k
  have el : shapeCast S512x128 x0 shapeCasts_S1x512x128_S512x128
      (dot_S512x128_S2048x128_S512x2048_1_1_0_0_n_n.lhsIdx (ix2 q m) ((contrEquiv1 dot_S512x128_S2048x128_S512x2048_1_1_0_0_n_n 128 rfl rfl).symm k))
      = x0 (ix3 0 q k) :=
    shapeCast_apply x0 _ _ (ix3 0 q k) (by
      rw [Shape.rowMajor_val_three, Shape.rowMajor_val_two, lhs_qk_0, (lhs_qk_1 _ _).trans hk]
      show (0 * 512 + q.val) * 128 + k.val = q.val * 128 + k.val
      omega)
  have er : shapeCast S2048x128 x1 shapeCasts_S1x2048x128_S2048x128
      (dot_S512x128_S2048x128_S512x2048_1_1_0_0_n_n.rhsIdx (ix2 q m) ((contrEquiv1 dot_S512x128_S2048x128_S512x2048_1_1_0_0_n_n 128 rfl rfl).symm k))
      = x1 (ix3 0 m k) :=
    shapeCast_apply x1 _ _ (ix3 0 m k) (by
      rw [Shape.rowMajor_val_three, Shape.rowMajor_val_two, rhs_qk_0, (rhs_qk_1 _ _).trans hk]
      show (0 * 2048 + m.val) * 128 + k.val = m.val * 128 + k.val
      omega)
  rw [el, er]

/-! ### Layout operations at an index -/

/-- A vector of 512 rows as a one-column matrix reads its row. -/
theorem col_apply {α : Type} (v : S512.Idx → α) (q : Fin 512) (z : Fin 1) :
    shapeCast S512x1 v shapeCasts_S512_S512x1 (ix2 q z) = v (ix1 q) :=
  shapeCast_apply v _ _ (ix1 q) (by
    rw [Shape.rowMajor_val_one, Shape.rowMajor_val_two]
    show q.val = q.val * 1 + z.val
    have := z.isLt; omega)

/-- A one-column matrix broadcast along the lanes reads its row. -/
theorem bcast_col_apply {α : Type} (v : S512x1.Idx → α) (q j : Fin 512) :
    broadcastTo S512x512 v broadcasts_S512x1_S512x512 (ix2 q j) = v (ix2 q 0) :=
  broadcastTo_apply v _ _ (ix2 q 0) (by
    intro a
    match a with
    | ⟨0, _⟩ => rfl
    | ⟨1, _⟩ => rfl)

/-- A 512-column slice of the score block at column offset c reads column c + j. -/
theorem slice_cols_apply {α : Type} (v : S512x2048.Idx → α) (off : Fin 2 → Nat) (h : S512x2048.Slices off S512x512)
    (c : Nat) (h0 : off 0 = 0) (h1 : off 1 = c) (hc : c + 512 ≤ 2048) (q j : Fin 512) :
    extractStridedSlice S512x512 off v h (ix2 q j) = v (ix2 q ⟨c + j.val, by omega⟩) :=
  extractStridedSlice_apply off v h _ (ix2 q ⟨c + j.val, by omega⟩) (by
    intro a
    match a with
    | ⟨0, _⟩ => show q.val = off 0 + q.val; omega
    | ⟨1, _⟩ => show c + j.val = off 1 + j.val; omega)

/-- A 512-row slice of the value block at row offset r reads row r + j. -/
theorem slice_rows_apply {α : Type} (v : S2048x512.Idx → α) (off : Fin 2 → Nat) (h : S2048x512.Slices off S512x512)
    (r : Nat) (h0 : off 0 = r) (h1 : off 1 = 0) (hr : r + 512 ≤ 2048) (j d : Fin 512) :
    extractStridedSlice S512x512 off v h (ix2 j d) = v (ix2 ⟨r + j.val, by omega⟩ d) :=
  extractStridedSlice_apply off v h _ (ix2 ⟨r + j.val, by omega⟩ d) (by
    intro a
    match a with
    | ⟨0, _⟩ => show r + j.val = off 0 + j.val; omega
    | ⟨1, _⟩ => show d.val = off 1 + d.val; omega)

/-- The value block without its unit axis. -/
theorem vals_apply {α : Type} (v : S1x2048x512.Idx → α) (m : Fin 2048) (d : Fin 512) :
    shapeCast S2048x512 v shapeCasts_S1x2048x512_S2048x512 (ix2 m d) = v (ix3 0 m d) :=
  shapeCast_apply v _ _ (ix3 0 m d) (by
    rw [Shape.rowMajor_val_three, Shape.rowMajor_val_two]
    show (0 * 2048 + m.val) * 512 + d.val = m.val * 512 + d.val
    omega)

/-- The result with its unit axis put back. -/
theorem out_apply {α : Type} (v : S512x512.Idx → α) (z : Fin 1) (q d : Fin 512) :
    shapeCast S1x512x512 v shapeCasts_S512x512_S1x512x512 (ix3 z q d) = v (ix2 q d) :=
  shapeCast_apply v _ _ (ix2 q d) (by
    rw [Shape.rowMajor_val_three, Shape.rowMajor_val_two]
    show q.val * 512 + d.val = (z.val * 512 + q.val) * 512 + d.val
    have := z.isLt; omega)

/-- A sum along the lanes of a 512 × 512 block, from zero. -/
theorem lanesum_apply (v : FVec Ideal S512x512 .f32) (h : S512x512.Reduces [1] S512) (hφ : FKind.Formats FTy.f32)
    (hacc : (0x00000000#32 : BitVec FTy.f32.bits) = FKind.add.neutral .f32 hφ) (q : Fin 512) :
    multiReduction (F := Ideal) .add [1] S512 v 0x00000000#32 h hφ hacc (ix1 q) = ∑ j : Fin 512, v (ix2 q j) := by
  refine (Ideal.multiReduction_add_single v _ h hφ hacc (ix1 q)).trans ?_
  refine Finset.sum_congr rfl fun j _ => congrArg v (funext fun a => Fin.ext ?_)
  match a with
  | ⟨0, _⟩ => rfl
  | ⟨1, _⟩ => rfl

/-! ### The weights-times-values product at an index -/

theorem lhs_pv_0 (i : S512x512.Idx) (κ : dot_S512x512_S512x512_S512x512_1_0_0_1_n_n.contr.Idx) :
    (dot_S512x512_S512x512_S512x512_1_0_0_1_n_n.lhsIdx i κ 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_pv_1 (i : S512x512.Idx) (κ : dot_S512x512_S512x512_S512x512_1_0_0_1_n_n.contr.Idx) :
    (dot_S512x512_S512x512_S512x512_1_0_0_1_n_n.lhsIdx i κ 1).val = (κ ⟨0, by decide⟩).val :=
  dot_S512x512_S512x512_S512x512_1_0_0_1_n_n.lhsIdx_val_of_single rfl i κ
theorem rhs_pv_0 (i : S512x512.Idx) (κ : dot_S512x512_S512x512_S512x512_1_0_0_1_n_n.contr.Idx) :
    (dot_S512x512_S512x512_S512x512_1_0_0_1_n_n.rhsIdx i κ 0).val = (κ ⟨0, by decide⟩).val :=
  dot_S512x512_S512x512_S512x512_1_0_0_1_n_n.rhsIdx_val_of_single rfl i κ
theorem rhs_pv_1 (i : S512x512.Idx) (κ : dot_S512x512_S512x512_S512x512_1_0_0_1_n_n.contr.Idx) :
    (dot_S512x512_S512x512_S512x512_1_0_0_1_n_n.rhsIdx i κ 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A 512 × 512 block of weights against a 512 × 512 block of value rows, from zero. -/
theorem pv_apply (p e : FVec Ideal S512x512 .bf16) (q d : Fin 512) :
    matmul dot_S512x512_S512x512_S512x512_1_0_0_1_n_n none p e (constant S512x512 .f32 0x00000000#32) (ix2 q d)
      = ∑ j : Fin 512, p (ix2 q j) * e (ix2 j d) := by
  simp only [matmul]
  rw [Ideal.matmul_constant_zero_apply, ← Equiv.sum_comp (contrEquiv1 dot_S512x512_S512x512_S512x512_1_0_0_1_n_n 512 rfl rfl).symm]
  refine Finset.sum_congr rfl fun j _ => ?_
  have hk := contrEquiv1_symm_val dot_S512x512_S512x512_S512x512_1_0_0_1_n_n 512 rfl rfl j
  have el : dot_S512x512_S512x512_S512x512_1_0_0_1_n_n.lhsIdx (ix2 q d) ((contrEquiv1 dot_S512x512_S512x512_S512x512_1_0_0_1_n_n 512 rfl rfl).symm j) = ix2 q j :=
    funext fun a => Fin.ext (by
      match a with
      | ⟨0, _⟩ => exact lhs_pv_0 _ _
      | ⟨1, _⟩ => exact (lhs_pv_1 _ _).trans hk)
  have er : dot_S512x512_S512x512_S512x512_1_0_0_1_n_n.rhsIdx (ix2 q d) ((contrEquiv1 dot_S512x512_S512x512_S512x512_1_0_0_1_n_n 512 rfl rfl).symm j) = ix2 j d :=
    funext fun a => Fin.ext (by
      match a with
      | ⟨0, _⟩ => exact (rhs_pv_0 _ _).trans hk
      | ⟨1, _⟩ => exact rhs_pv_1 _ _)
  rw [el, er]

/-! ### The payloads -/

theorem ofBits_neg_inf : Ideal.ofBits .f32 0xFF800000#32 = ⊥ := by simp [Ideal.ofBits, Ideal.ieee]

/-- The row maximum, as a column: the largest score of row q, from -∞. -/
theorem rowmax_block (q : Fin 512) (z : Fin 1) :
    k1_pay4 x0 x1 (ix2 q z) = (Finset.univ : Finset (Fin 2048)).fold max ⊥ (fun m => k1_pay3 x0 x1 (ix2 q m)) := by
  unfold k1_pay4
  rw [col_apply]
  refine (Ideal.multiReduction_maximumf_single (k1_pay3 x0 x1) _ reduces_S512x2048_S512 _ _ (ix1 q)).trans ?_
  show (Finset.univ : Finset (Fin 2048)).fold max (Ideal.ofBits .f32 0xFF800000#32) _ = _
  rw [ofBits_neg_inf]
  congr 1

/-- The unnormalised weight of column m of row q in the score block. -/
def wt (q : Fin 512) (m : Fin 2048) : EReal := Ideal.exp (k1_pay3 x0 x1 (ix2 q m) - k1_pay4 x0 x1 (ix2 q 0))

theorem weights_q0 (q j : Fin 512) : k1_pay5 x0 x1 (ix2 q j) = wt x0 x1 q ⟨j.val, by omega⟩ := by
  unfold k1_pay5
  show Ideal.exp (extractStridedSlice S512x512 ![0, 0] (k1_pay3 x0 x1) slices_S512x2048_o0_0_S512x512 (ix2 q j)
    - broadcastTo S512x512 (k1_pay4 x0 x1) broadcasts_S512x1_S512x512 (ix2 q j)) = _
  rw [slice_cols_apply _ _ _ 0 rfl rfl (by omega), bcast_col_apply]
  unfold wt
  rw [show (⟨0 + j.val, by omega⟩ : Fin 2048) = ⟨j.val, by omega⟩ from Fin.ext (Nat.zero_add _)]

theorem weights_q1 (q j : Fin 512) : k1_pay6 x0 x1 (ix2 q j) = wt x0 x1 q ⟨512 + j.val, by omega⟩ := by
  unfold k1_pay6
  show Ideal.exp (extractStridedSlice S512x512 ![0, 512] (k1_pay3 x0 x1) slices_S512x2048_o0_512_S512x512 (ix2 q j)
    - broadcastTo S512x512 (k1_pay4 x0 x1) broadcasts_S512x1_S512x512 (ix2 q j)) = _
  rw [slice_cols_apply _ _ _ 512 rfl rfl (by omega), bcast_col_apply]
  rfl

theorem weights_q2 (q j : Fin 512) : k1_pay9 x0 x1 (ix2 q j) = wt x0 x1 q ⟨1024 + j.val, by omega⟩ := by
  unfold k1_pay9
  show Ideal.exp (extractStridedSlice S512x512 ![0, 1024] (k1_pay3 x0 x1) slices_S512x2048_o0_1024_S512x512 (ix2 q j)
    - broadcastTo S512x512 (k1_pay4 x0 x1) broadcasts_S512x1_S512x512 (ix2 q j)) = _
  rw [slice_cols_apply _ _ _ 1024 rfl rfl (by omega), bcast_col_apply]
  rfl

/-- The weights' total over the first two quarters of row q. -/
theorem sums_q01 (q : Fin 512) (z : Fin 1) :
    k1_pay7 x0 x1 (ix2 q z)
      = (∑ j : Fin 512, wt x0 x1 q ⟨j.val, by omega⟩) + ∑ j : Fin 512, wt x0 x1 q ⟨512 + j.val, by omega⟩ := by
  unfold k1_pay7
  simp only [addf_apply, broadcast_apply, col_apply]
  rw [show FloatOps.ofBits (F := Ideal) FTy.f32 0#32 = (0 : EReal) from Ideal.ofBits_zero_f32, zero_add]
  refine congrArg₂ (· + ·) ((lanesum_apply _ _ _ _ q).trans ?_) ((lanesum_apply _ _ _ _ q).trans ?_)
  · exact Finset.sum_congr rfl fun j _ => weights_q0 x0 x1 q j
  · exact Finset.sum_congr rfl fun j _ => weights_q1 x0 x1 q j

/-- The weighted value rows over the first two quarters, at (q, d). -/
theorem prods_q01 (q d : Fin 512) :
    k1_pay8 x0 x1 x2 (ix2 q d)
      = (∑ j : Fin 512, wt x0 x1 q ⟨j.val, by omega⟩ * x2 (ix3 0 ⟨j.val, by omega⟩ d))
        + ∑ j : Fin 512, wt x0 x1 q ⟨512 + j.val, by omega⟩ * x2 (ix3 0 ⟨512 + j.val, by omega⟩ d) := by
  unfold k1_pay8 k1_pay2
  simp only [addf_apply, broadcast_apply, pv_apply, truncf_apply, weights_q0, weights_q1]
  rw [show FloatOps.ofBits (F := Ideal) FTy.f32 0#32 = (0 : EReal) from Ideal.ofBits_zero_f32, zero_add]
  refine congrArg₂ (· + ·) (Finset.sum_congr rfl fun j _ => ?_) (Finset.sum_congr rfl fun j _ => ?_)
  · rw [slice_rows_apply _ _ _ 0 rfl rfl (by omega), vals_apply,
      show (⟨0 + j.val, by omega⟩ : Fin 2048) = ⟨j.val, by omega⟩ from Fin.ext (Nat.zero_add _)]
  · rw [slice_rows_apply _ _ _ 512 rfl rfl (by omega), vals_apply]

theorem exp_apply {s : Shape} {φ : FTy} (a : FVec Ideal s φ) (i : s.Idx) : exp a i = Ideal.exp (a i) := rfl

/-- The last step: the two remaining quarters are added, the products divided by the totals. -/
theorem final_block (v5 : FVec Ideal S2048x512 .bf16) (v6 : FVec Ideal S512x2048 .f32) (v8 v31 : FVec Ideal S512x1 .f32)
    (v34 : FVec Ideal S512x512 .f32) (v39 : FVec Ideal S512x512 .bf16) (v40 : FVec Ideal S512x512 .f32)
    (z : Fin 1) (q d : Fin 512) :
    k1_pay1 v5 v6 v8 v31 v34 v39 v40 (ix3 z q d)
      = Ideal.div
          ((v34 (ix2 q d) + ∑ j : Fin 512, v39 (ix2 q j) * v5 (ix2 ⟨1024 + j.val, by omega⟩ d))
            + ∑ j : Fin 512, Ideal.exp (v6 (ix2 q ⟨1536 + j.val, by omega⟩) - v8 (ix2 q 0)) * v5 (ix2 ⟨1536 + j.val, by omega⟩ d))
          ((v31 (ix2 q 0) + ∑ j : Fin 512, v40 (ix2 q j))
            + ∑ j : Fin 512, Ideal.exp (v6 (ix2 q ⟨1536 + j.val, by omega⟩) - v8 (ix2 q 0))) := by
  unfold k1_pay1
  simp only [out_apply, divf_apply, addf_apply, bcast_col_apply, col_apply, pv_apply, truncf_apply, exp_apply, subf_apply]
  refine congrArg₂ Ideal.div
    (congrArg₂ (· + ·) (congrArg₂ (· + ·) rfl (Finset.sum_congr rfl fun j _ => ?_)) (Finset.sum_congr rfl fun j _ => ?_))
    (congrArg₂ (· + ·) (congrArg₂ (· + ·) rfl (lanesum_apply _ _ _ _ q))
      ((lanesum_apply _ _ _ _ q).trans (Finset.sum_congr rfl fun j _ => ?_)))
  · rw [slice_rows_apply _ _ _ 1024 rfl rfl (by omega)]
  · rw [slice_cols_apply _ _ _ 1536 rfl rfl (by omega), slice_rows_apply _ _ _ 1536 rfl rfl (by omega)]
  · show Ideal.exp (extractStridedSlice S512x512 ![0, 1536] v6 slices_S512x2048_o0_1536_S512x512 (ix2 q j)
      - broadcastTo S512x512 v8 broadcasts_S512x1_S512x512 (ix2 q j)) = _
    rw [slice_cols_apply _ _ _ 1536 rfl rfl (by omega), bcast_col_apply]

/-- The body's result at (z, q, d), of the three blocks it loaded: the weighted sum of all 2048 value rows over the
    total of all 2048 weights. -/
theorem block_apply (z : Fin 1) (q d : Fin 512) :
    k1_pay1 (k1_pay2 x2) (k1_pay3 x0 x1) (k1_pay4 x0 x1) (k1_pay7 x0 x1) (k1_pay8 x0 x1 x2) (k1_pay10 x0 x1)
        (k1_pay11 x0 x1) (ix3 z q d)
      = Ideal.div (∑ m : Fin 2048, wt x0 x1 q m * x2 (ix3 0 m d)) (∑ m : Fin 2048, wt x0 x1 q m) := by
  rw [final_block, sum_quarters (fun m => wt x0 x1 q m * x2 (ix3 0 m d)), sum_quarters (fun m => wt x0 x1 q m)]
  refine congrArg₂ Ideal.div
    (congrArg₂ (· + ·) (congrArg₂ (· + ·) (prods_q01 x0 x1 x2 q d) (Finset.sum_congr rfl fun j _ => ?_))
      (Finset.sum_congr rfl fun j _ => ?_))
    (congrArg₂ (· + ·) (congrArg₂ (· + ·) (sums_q01 x0 x1 q 0) (Finset.sum_congr rfl fun j _ => ?_)) rfl)
  · show k1_pay9 x0 x1 (ix2 q j) * shapeCast S2048x512 x2 shapeCasts_S1x2048x512_S2048x512 (ix2 ⟨1024 + j.val, by omega⟩ d) = _
    rw [weights_q2, vals_apply]
  · show wt x0 x1 q ⟨1536 + j.val, by omega⟩
      * shapeCast S2048x512 x2 shapeCasts_S1x2048x512_S2048x512 (ix2 ⟨1536 + j.val, by omega⟩ d) = _
    rw [vals_apply]
  · exact weights_q2 x0 x1 q j

/-- When the three blocks are row n of batch b of the queries, and batch b of the keys and of the values, the body's result at
    (z, q, d) is the attention's value at (b, n, d). -/
theorem block_eq_attn (Q K : Fin 8 → Fin 2048 → Fin 128 → EReal) (E : Fin 8 → Fin 2048 → Fin 512 → EReal)
    (b : Fin 8) (n : Fin 2048) (z : Fin 1) (q d : Fin 512)
    (h0 : ∀ k : Fin 128, x0 (ix3 0 q k) = Q b n k) (h1 : ∀ (m : Fin 2048) (k : Fin 128), x1 (ix3 0 m k) = K b m k)
    (h2 : ∀ m : Fin 2048, x2 (ix3 0 m d) = E b m d) :
    k1_pay1 (k1_pay2 x2) (k1_pay3 x0 x1) (k1_pay4 x0 x1) (k1_pay7 x0 x1) (k1_pay8 x0 x1 x2) (k1_pay10 x0 x1)
        (k1_pay11 x0 x1) (ix3 z q d)
      = attnSumThenDivide Q K E b n d := by
  have hs : ∀ m : Fin 2048, k1_pay3 x0 x1 (ix2 q m) = score Q K b n m := fun m => by
    rw [score_block]; unfold score
    exact Finset.sum_congr rfl fun k _ => by rw [h0 k, h1 m k]
  have hM : k1_pay4 x0 x1 (ix2 q 0) = rowMax Q K b n := by
    rw [rowmax_block]; unfold rowMax
    congr 1
    exact funext hs
  have hw : ∀ m : Fin 2048, wt x0 x1 q m = weight Q K b n m := fun m => by
    unfold wt weight; rw [hs m, hM]
  rw [block_apply]
  unfold attnSumThenDivide denom
  refine congrArg₂ Ideal.div (Finset.sum_congr rfl fun m _ => ?_) (Finset.sum_congr rfl fun m _ => hw m)
  rw [hw m, h2 m]

end Payload

/-! ## From blocks to the array -/

variable (V : (c : Dev nD) → (b : Ref sig .tc) → Buf (Elt Ideal) ((c : Thread nD τ).loc b))

theorem zero_offsets : (![0, 0, 0] : Fin 3 → Nat) = fun _ => 0 := funext fun a => by fin_cases a <;> rfl

/-- The attention of the query, key and value arrays as the call finds them, index by index. -/
abbrev attnOf (c : Dev nD) : S8x2048x512.Idx → EReal := fun i =>
  attnSumThenDivide (fun b n k => V c main_v15 (ix3 b n k)) (fun b n k => V c main_v14 (ix3 b n k))
    (fun b n d => V c main_v16 (ix3 b n d)) (i 0) (i 1) (i 2)

/-- The printed index maps, decided over the grid: the query block moves with the output block, the key and value blocks with
    its batch only, and the output's block indices stay in their ranges. -/
theorem index_facts : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0
    ∧ win1_1.index t (2 : Fin 3) = 0
    ∧ win1_2.index t (0 : Fin 3) = win1_3.index t (0 : Fin 3) ∧ win1_2.index t (1 : Fin 3) = 0
    ∧ win1_2.index t (2 : Fin 3) = 0
    ∧ win1_3.index t (0 : Fin 3) ≤ 7 ∧ win1_3.index t (1 : Fin 3) ≤ 3 ∧ win1_3.index t (2 : Fin 3) = 0 :=
  (by decide +kernel : ∀ t : Fin grid1.N, _)

/-- Every (batch, query tile) pair is some point's output block. -/
theorem index_onto : ∀ (p : Fin 8) (r : Fin 4), ∃ t : Fin cfg1.N, win1_3.index t = ![p.val, r.val, 0] :=
  (by decide +kernel : ∀ (p : Fin 8) (r : Fin 4), ∃ t : Fin grid1.N, win1_3.index t = ![p.val, r.val, 0])

/-- What a point writes back is its block of the attention of the arrays as the call finds them. -/
theorem flushed_eq (c : Dev nD) (t : Fin cfg1.N) :
    (dat1 (F := Ideal) V c).flushed 3 t = ((cfg1.win 3).blk t).view.read (Elt Ideal) (attnOf V c) := by
  show (cfg1.win 3).cut (grid1.coords t) ((dat1 V c).after 3 t) = _
  rw [after1_3]
  unfold out1_3
  rw [View.canon_unit_zero zero_offsets]
  simp only [View.ld_unit_zero (S := S1x512x128) zero_offsets, View.ld_unit_zero (S := S1x2048x128) zero_offsets,
    View.ld_unit_zero (S := S1x2048x512) zero_offsets]
  obtain ⟨e00, e01, e02, e10, e11, e12, e20, e21, e22, e30, e31, e32⟩ := index_facts t
  funext j
  obtain ⟨z, q, d, rfl⟩ : ∃ (z : Fin 1) (q : Fin 512) (d : Fin 512), j = ix3 z q d := ⟨j 0, j 1, j 2, eq_ix3 j⟩
  show k1_pay1 (k1_pay2 (iblk1 V c 2 t)) (k1_pay3 (iblk1 V c 0 t) (iblk1 V c 1 t))
      (k1_pay4 (iblk1 V c 0 t) (iblk1 V c 1 t)) (k1_pay7 (iblk1 V c 0 t) (iblk1 V c 1 t))
      (k1_pay8 (iblk1 V c 0 t) (iblk1 V c 1 t) (iblk1 V c 2 t)) (k1_pay10 (iblk1 V c 0 t) (iblk1 V c 1 t))
      (k1_pay11 (iblk1 V c 0 t) (iblk1 V c 1 t)) (ix3 z q d)
    = attnOf V c (((cfg1.win 3).blk t).view.emb (ix3 z q d))
  have hd : (((cfg1.win 3).blk t).view.emb (ix3 z q d)) 2 = d :=
    Fin.ext (by show win1_3.index t (2 : Fin 3) * 512 + 1 * d.val = d.val; omega)
  refine (block_eq_attn (iblk1 V c 0 t) (iblk1 V c 1 t) (iblk1 V c 2 t)
    (fun b n k => V c main_v15 (ix3 b n k)) (fun b n k => V c main_v14 (ix3 b n k)) (fun b n d => V c main_v16 (ix3 b n d))
    ((((cfg1.win 3).blk t).view.emb (ix3 z q d)) 0) ((((cfg1.win 3).blk t).view.emb (ix3 z q d)) 1) z q d ?_ ?_ ?_).trans
    (congrArg (attnSumThenDivide (fun b n k => V c main_v15 (ix3 b n k)) (fun b n k => V c main_v14 (ix3 b n k))
      (fun b n d => V c main_v16 (ix3 b n d)) _ _) hd.symm)
  · intro k
    show V c main_v15 (((cfg1.win 0).blk t).view.emb (ix3 0 q k)) = V c main_v15 (ix3 _ _ k)
    refine congrArg (V c main_v15) (funext fun a => Fin.ext ?_)
    match a with
    | ⟨0, _⟩ =>
      show win1_0.index t (0 : Fin 3) * 1 + 1 * (0 : Fin 1).val = win1_3.index t (0 : Fin 3) * 1 + 1 * z.val
      have := z.isLt; omega
    | ⟨1, _⟩ =>
      show win1_0.index t (1 : Fin 3) * 512 + 1 * q.val = win1_3.index t (1 : Fin 3) * 512 + 1 * q.val
      omega
    | ⟨2, _⟩ =>
      show win1_0.index t (2 : Fin 3) * 128 + 1 * k.val = k.val
      omega
  · intro m k
    show V c main_v14 (((cfg1.win 1).blk t).view.emb (ix3 0 m k)) = V c main_v14 (ix3 _ m k)
    refine congrArg (V c main_v14) (funext fun a => Fin.ext ?_)
    match a with
    | ⟨0, _⟩ =>
      show win1_1.index t (0 : Fin 3) * 1 + 1 * (0 : Fin 1).val = win1_3.index t (0 : Fin 3) * 1 + 1 * z.val
      have := z.isLt; omega
    | ⟨1, _⟩ =>
      show win1_1.index t (1 : Fin 3) * 2048 + 1 * m.val = m.val
      omega
    | ⟨2, _⟩ =>
      show win1_1.index t (2 : Fin 3) * 128 + 1 * k.val = k.val
      omega
  · intro m
    show V c main_v16 (((cfg1.win 2).blk t).view.emb (ix3 0 m d)) = V c main_v16 (ix3 _ m d)
    refine congrArg (V c main_v16) (funext fun a => Fin.ext ?_)
    match a with
    | ⟨0, _⟩ =>
      show win1_2.index t (0 : Fin 3) * 1 + 1 * (0 : Fin 1).val = win1_3.index t (0 : Fin 3) * 1 + 1 * z.val
      have := z.isLt; omega
    | ⟨1, _⟩ =>
      show win1_2.index t (1 : Fin 3) * 2048 + 1 * m.val = m.val
      omega
    | ⟨2, _⟩ =>
      show win1_2.index t (2 : Fin 3) * 512 + 1 * d.val = d.val
      omega

/-- An index of the array is in a point's block iff each coordinate is in the block's range on its axis. -/
theorem mem_blk (t : Fin cfg1.N) (i : S8x2048x512.Idx) :
    i ∈ ((cfg1.win 3).blk t).view.set ↔ ∀ a : Fin 3, win1_3.index t a * S1x512x512.size a ≤ (i a).val
      ∧ (i a).val < win1_3.index t a * S1x512x512.size a + S1x512x512.size a := by
  show i ∈ ((View.whole main_v17).slice (win1_3.rect t)).set ↔ _
  rw [View.set_slice_whole, Rect.mem_set_unit]
  exact Iff.rfl

/-- Every index of the array is in some point's block: row n of batch b is in the block of (b, n / 512). -/
theorem cover (i : S8x2048x512.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 512 := (i 2).isLt
  obtain ⟨t, ht⟩ := index_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 512 ≤ (i 1).val ∧ (i 1).val < win1_3.index t (1 : Fin 3) * 512 + 512
    omega
  | ⟨2, _⟩ =>
    show win1_3.index t (2 : Fin 3) * 512 ≤ (i 2).val ∧ (i 2).val < win1_3.index t (2 : Fin 3) * 512 + 512
    omega

/-- After the second call, its output array holds, at (b, n, d), the weighted sum of the value rows divided by the
    weights' total, of the query, key and value arrays as the call found them. -/
theorem attn_array (c : Dev nD) :
    (dat1 (F := Ideal) V c).arrAt 3 cfg1.N = fun i : S8x2048x512.Idx =>
      attnSumThenDivide (fun b n k => V c main_v15 (ix3 b n k)) (fun b n k => V c main_v14 (ix3 b n k))
        (fun b n d => V c main_v16 (ix3 b n d)) (i 0) (i 1) (i 2) :=
  (dat1 (F := Ideal) V c).arrAt_eq_of_cover 3 (attnOf V c) (fun t _ => flushed_eq V c t) cover

end Cert.KernelIdeal.AttnArray

end
-- ==== Proof.MlpArray.lean ====
/-
  The perceptron call's three output arrays, each read as one function of the arrays the call finds on entry.
-/
import proofs.«406603_j84327387890091_3_alg».proof.Proof.Gen.KernelIdeal.Frame
import proofs.«406603_j84327387890091_3_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KernelIdeal.MlpArray

open Cert.KernelIdeal Cert.KernelIdeal.Gen Cert.Spec

variable (V : (c : Dev nD) → (b : Ref sig .tc) → Buf (Elt Ideal) ((c : Thread nD τ).loc b))

/-! The product `rowsByW1`: rows of the left operand against columns of the right. -/

theorem lhs_rowsByW1_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_rowsByW1_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_rowsByW1_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_rowsByW1_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- Into a zero accumulator the product's entry (p, o) is the sum over k of left (p, k) times right (k, o). -/
theorem rowsByW1_apply (lhs : FVec Ideal S512x512 .bf16) (rhs : FVec Ideal S512x2048 .bf16) (p : Fin 512) (o : Fin 2048) :
    matmul dot_S512x512_S512x2048_S512x2048_1_0_0_1_n_n none lhs rhs (constant (F := Ideal) S512x2048 .f32 0x00000000#32) (ix2 p o)
      = ∑ k : Fin 512, lhs (ix2 p k) * rhs (ix2 k o) := by
  simp only [matmul]
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 p o) ((ValueIdx.contrEquiv1 dot_S512x512_S512x2048_S512x2048_1_0_0_1_n_n 512 rfl rfl).symm k) = ix2 p k := funext fun a => Fin.ext (by
    match a with
    | ⟨0, _⟩ => exact lhs_rowsByW1_0 _ _
    | ⟨1, _⟩ => exact (lhs_rowsByW1_1 _ _).trans hk)
  have er : dot_S512x512_S512x2048_S512x2048_1_0_0_1_n_n.rhsIdx (ix2 p o) ((ValueIdx.contrEquiv1 dot_S512x512_S512x2048_S512x2048_1_0_0_1_n_n 512 rfl rfl).symm k) = ix2 k o := funext fun a => Fin.ext (by
    match a with
    | ⟨0, _⟩ => exact (rhs_rowsByW1_0 _ _).trans hk
    | ⟨1, _⟩ => exact rhs_rowsByW1_1 _ _)
  rw [el, er]

/-! The product `hiddenByW2e`: rows of the left operand against columns of the right. -/

theorem lhs_hiddenByW2e_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_hiddenByW2e_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs_hiddenByW2e_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs_hiddenByW2e_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- Into a zero accumulator the product's entry (p, o) is the sum over k of left (p, k) times right (k, o). -/
theorem hiddenByW2e_apply (lhs : FVec Ideal S512x2048 .bf16) (rhs : FVec Ideal S2048x512 .bf16) (p : Fin 512) (o : Fin 512) :
    matmul dot_S512x2048_S2048x512_S512x512_1_0_0_1_n_n none lhs rhs (constant (F := Ideal) S512x512 .f32 0x00000000#32) (ix2 p o)
      = ∑ k : Fin 2048, lhs (ix2 p k) * rhs (ix2 k o) := by
  simp only [matmul]
  rw [Ideal.matmul_constant_zero_apply, ← Equiv.sum_comp (ValueIdx.contrEquiv1 dot_S512x2048_S2048x512_S512x512_1_0_0_1_n_n 2048 rfl rfl).symm]
  refine Finset.sum_congr rfl fun k _ => ?_
  have hk := ValueIdx.contrEquiv1_symm_val dot_S512x2048_S2048x512_S512x512_1_0_0_1_n_n 2048 rfl rfl k
  have el : dot_S512x2048_S2048x512_S512x512_1_0_0_1_n_n.lhsIdx (ix2 p o) ((ValueIdx.contrEquiv1 dot_S512x2048_S2048x512_S512x512_1_0_0_1_n_n 2048 rfl rfl).symm k) = ix2 p k := funext fun a => Fin.ext (by
    match a with
    | ⟨0, _⟩ => exact lhs_hiddenByW2e_0 _ _
    | ⟨1, _⟩ => exact (lhs_hiddenByW2e_1 _ _).trans hk)
  have er : dot_S512x2048_S2048x512_S512x512_1_0_0_1_n_n.rhsIdx (ix2 p o) ((ValueIdx.contrEquiv1 dot_S512x2048_S2048x512_S512x512_1_0_0_1_n_n 2048 rfl rfl).symm k) = ix2 k o := funext fun a => Fin.ext (by
    match a with
    | ⟨0, _⟩ => exact (rhs_hiddenByW2e_0 _ _).trans hk
    | ⟨1, _⟩ => exact rhs_hiddenByW2e_1 _ _)
  rw [el, er]

/-! The product `hiddenByW2k`: rows of the left operand against columns of the right. -/

theorem lhs_hiddenByW2k_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhs_hiddenByW2k_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhs_hiddenByW2k_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhs_hiddenByW2k_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- Into a zero accumulator the product's entry (p, o) is the sum over k of left (p, k) times right (k, o). -/
theorem hiddenByW2k_apply (lhs : FVec Ideal S512x2048 .bf16) (rhs : FVec Ideal S2048x256 .bf16) (p : Fin 512) (o : Fin 256) :
    matmul dot_S512x2048_S2048x256_S512x256_1_0_0_1_n_n none lhs rhs (constant (F := Ideal) S512x256 .f32 0x00000000#32) (ix2 p o)
      = ∑ k : Fin 2048, lhs (ix2 p k) * rhs (ix2 k o) := by
  simp only [matmul]
  rw [Ideal.matmul_constant_zero_apply, ← Equiv.sum_comp (ValueIdx.contrEquiv1 dot_S512x2048_S2048x256_S512x256_1_0_0_1_n_n 2048 rfl rfl).symm]
  refine Finset.sum_congr rfl fun k _ => ?_
  have hk := ValueIdx.contrEquiv1_symm_val dot_S512x2048_S2048x256_S512x256_1_0_0_1_n_n 2048 rfl rfl k
  have el : dot_S512x2048_S2048x256_S512x256_1_0_0_1_n_n.lhsIdx (ix2 p o) ((ValueIdx.contrEquiv1 dot_S512x2048_S2048x256_S512x256_1_0_0_1_n_n 2048 rfl rfl).symm k) = ix2 p k := funext fun a => Fin.ext (by
    match a with
    | ⟨0, _⟩ => exact lhs_hiddenByW2k_0 _ _
    | ⟨1, _⟩ => exact (lhs_hiddenByW2k_1 _ _).trans hk)
  have er : dot_S512x2048_S2048x256_S512x256_1_0_0_1_n_n.rhsIdx (ix2 p o) ((ValueIdx.contrEquiv1 dot_S512x2048_S2048x256_S512x256_1_0_0_1_n_n 2048 rfl rfl).symm k) = ix2 k o := funext fun a => Fin.ext (by
    match a with
    | ⟨0, _⟩ => exact (rhs_hiddenByW2k_0 _ _).trans hk
    | ⟨1, _⟩ => exact rhs_hiddenByW2k_1 _ _)
  rw [el, er]

/-! ## The layout operations of the body, read at an index -/

/-- A one-row matrix broadcast over the rows reads its row at the column. -/
theorem biasRow_apply {R H : Nat} (b : (⟨2, ![1, H]⟩ : Shape).Idx → EReal)
    (hb : (⟨2, ![1, H]⟩ : Shape).Broadcasts ⟨2, ![R, H]⟩) (p : Fin R) (o : Fin H) :
    broadcastTo ⟨2, ![R, H]⟩ b hb (ix2 p o) = b (ix2 0 o) :=
  broadcastTo_apply b hb (ix2 p o) (ix2 0 o) fun a => by
    match a with
    | ⟨0, _⟩ => show (0 : Nat) = if (1 : Nat) = 1 then 0 else _; rw [if_pos rfl]
    | ⟨1, _⟩ =>
      show o.val = if H = 1 then 0 else o.val
      have ho := o.isLt
      split <;> omega

/-- Columns 0..127 of a 256-column tile. -/
theorem lowCols_apply (y : S512x256.Idx → EReal) (p : Fin 512) (q : Fin 128) :
    extractStridedSlice S512x128 ![0, 0] y slices_S512x256_o0_0_S512x128 (ix2 p q)
      = y (ix2 p ⟨q.val, by have := q.isLt; omega⟩) :=
  extractStridedSlice_apply _ y _ (ix2 p q) (ix2 p ⟨q.val, by have := q.isLt; omega⟩) fun a => by
    match a with
    | ⟨0, _⟩ => show p.val = 0 + p.val; omega
    | ⟨1, _⟩ => show q.val = 0 + q.val; omega

/-- Columns 128..255 of a 256-column tile. -/
theorem highCols_apply (y : S512x256.Idx → EReal) (p : Fin 512) (q : Fin 128) :
    extractStridedSlice S512x128 ![0, 128] y slices_S512x256_o0_128_S512x128 (ix2 p q)
      = y (ix2 p ⟨128 + q.val, by have := q.isLt; omega⟩) :=
  extractStridedSlice_apply _ y _ (ix2 p q) (ix2 p ⟨128 + q.val, by have := q.isLt; omega⟩) fun a => by
    match a with
    | ⟨0, _⟩ => show p.val = 0 + p.val; omega
    | ⟨1, _⟩ => show 128 + q.val = 128 + q.val; rfl

/-! ## The body's arithmetic at an entry of a tile -/

/-- The tile of rows the two perceptrons share is the loaded one: its casts change nothing at the ideal values. -/
theorem rowsTile_apply (x0 : Vec Ideal S512x512 .f32) (j : S512x512.Idx) :
    k0_pay5 (F := Ideal) x0 j = x0 j := by
  unfold k0_pay5
  show shapeCast S512x512 x0 shapeCasts_S512x512_S512x512 j = x0 j
  rw [shapeCast_self]

/-- A perceptron's hidden tile: relu of the rows against the first weights plus the first bias. -/
def hiddenTile (x0 : Vec Ideal S512x512 .f32) (w : Vec Ideal S512x2048 .bf16) (b : Vec Ideal S1x2048 .f32) :
    FVec Ideal S512x2048 .bf16 :=
  truncf .bf16
    (maximumf
      (addf
        (matmul dot_S512x512_S512x2048_S512x2048_1_0_0_1_n_n none (k0_pay5 x0)
          (shapeCast S512x2048 w shapeCasts_S512x2048_S512x2048 : FVec Ideal S512x2048 .bf16) (constant S512x2048 .f32 0x00000000#32))
        (broadcastTo S512x2048
          (shapeCast S1x2048 (shapeCast S1x2048 b shapeCasts_S1x2048_S1x2048 : FVec Ideal S1x2048 .f32) shapeCasts_S1x2048_S1x2048 : FVec Ideal S1x2048 .f32)
          broadcasts_S1x2048_S512x2048))
      (broadcast S512x2048 (Scalar.ofBits .f32 0x00000000#32)))
    bitsLt_bf16_f32

theorem hiddenTile_apply (x0 : Vec Ideal S512x512 .f32) (w : Vec Ideal S512x2048 .bf16) (b : Vec Ideal S1x2048 .f32)
    (p : Fin 512) (h : Fin 2048) :
    hiddenTile x0 w b (ix2 p h) = max ((∑ d : Fin 512, x0 (ix2 p d) * w (ix2 d h)) + b (ix2 0 h)) 0 := by
  unfold hiddenTile
  show max
      (matmul dot_S512x512_S512x2048_S512x2048_1_0_0_1_n_n none (k0_pay5 x0)
          (shapeCast S512x2048 w shapeCasts_S512x2048_S512x2048) (constant (F := Ideal) S512x2048 .f32 0x00000000#32) (ix2 p h)
        + broadcastTo S512x2048
          (shapeCast S1x2048 (shapeCast S1x2048 b shapeCasts_S1x2048_S1x2048) shapeCasts_S1x2048_S1x2048)
          broadcasts_S1x2048_S512x2048 (ix2 p h))
      (Ideal.ofBits .f32 0x00000000#32) = _
  rw [rowsByW1_apply, Ideal.ofBits_zero_f32, shapeCast_self, shapeCast_self, shapeCast_self]
  refine congrArg₂ max (congrArg₂ (· + ·) ?_ ?_) rfl
  · exact Finset.sum_congr rfl fun d _ => by rw [rowsTile_apply]
  · exact biasRow_apply b _ p h

/-- The values' tile: the hidden tile against the second weights plus the second bias. -/
theorem valuesTile_apply (x0 : Vec Ideal S512x512 .f32) (w : Vec Ideal S512x2048 .bf16) (b : Vec Ideal S1x2048 .f32)
    (w2 : Vec Ideal S2048x512 .bf16) (b2 : Vec Ideal S1x512 .f32) (p : Fin 512) (o : Fin 512) :
    k0_pay6 x0 w b w2 b2 (ix2 p o)
      = (∑ h : Fin 2048, hiddenTile x0 w b (ix2 p h) * w2 (ix2 h o)) + b2 (ix2 0 o) := by
  show matmul dot_S512x2048_S2048x512_S512x512_1_0_0_1_n_n none (hiddenTile x0 w b)
        (shapeCast S2048x512 w2 shapeCasts_S2048x512_S2048x512) (constant (F := Ideal) S512x512 .f32 0x00000000#32) (ix2 p o)
      + broadcastTo S512x512 (shapeCast S1x512 (shapeCast S1x512 b2 shapeCasts_S1x512_S1x512) shapeCasts_S1x512_S1x512)
        broadcasts_S1x512_S512x512 (ix2 p o) = _
  rw [hiddenByW2e_apply, shapeCast_self, shapeCast_self, shapeCast_self]
  exact congrArg₂ (· + ·) rfl (biasRow_apply b2 _ p o)

/-- The second perceptron's tile before its bias. -/
theorem secondTile_apply (x0 : Vec Ideal S512x512 .f32) (w : Vec Ideal S512x2048 .bf16) (b : Vec Ideal S1x2048 .f32)
    (w2 : Vec Ideal S2048x256 .bf16) (p : Fin 512) (o : Fin 256) :
    k0_pay7 x0 w b w2 (ix2 p o) = ∑ h : Fin 2048, hiddenTile x0 w b (ix2 p h) * w2 (ix2 h o) := by
  show matmul dot_S512x2048_S2048x256_S512x256_1_0_0_1_n_n none (hiddenTile x0 w b)
        (shapeCast S2048x256 w2 shapeCasts_S2048x256_S2048x256) (constant (F := Ideal) S512x256 .f32 0x00000000#32) (ix2 p o) = _
  rw [hiddenByW2k_apply, shapeCast_self]

/-- … and with it. -/
theorem secondBias_apply (y : FVec Ideal S512x256 .f32) (b2 : Vec Ideal S1x256 .f32) (p : Fin 512) (o : Fin 256) :
    k0_pay1 y b2 (ix2 p o) = y (ix2 p o) + b2 (ix2 0 o) := by
  show y (ix2 p o) + broadcastTo S512x256 (shapeCast S1x256 (shapeCast S1x256 b2 shapeCasts_S1x256_S1x256) shapeCasts_S1x256_S1x256)
        broadcasts_S1x256_S512x256 (ix2 p o) = _
  rw [shapeCast_self, shapeCast_self]
  exact congrArg₂ (· + ·) rfl (biasRow_apply b2 _ p o)

/-! ## A tile's entry as the flat perceptron's, once each loaded block is read off its array -/

section Point

variable (X : Arr2 16384 512) (W1 : Arr2 512 2048) (B1 : Arr2 1 2048)
  (x0 : Vec Ideal S512x512 .f32) (w : Vec Ideal S512x2048 .bf16) (b : Vec Ideal S1x2048 .f32)
  (p : Fin 512) (r : Fin 16384)
  (hx : ∀ d : Fin 512, x0 (ix2 p d) = X (ix2 r d))
  (hw : ∀ (d : Fin 512) (h : Fin 2048), w (ix2 d h) = W1 (ix2 d h))
  (hb : ∀ h : Fin 2048, b (ix2 0 h) = B1 (ix2 0 h))

include hx hw hb

theorem hiddenTile_eq (h : Fin 2048) :
    hiddenTile x0 w b (ix2 p h) = max ((∑ d : Fin 512, X (ix2 r d) * W1 (ix2 d h)) + B1 (ix2 0 h)) 0 := by
  rw [hiddenTile_apply, hb h]
  refine congrArg₂ max (congrArg₂ (· + ·) ?_ rfl) rfl
  exact Finset.sum_congr rfl fun d _ => by rw [hx d, hw d h]

/-- The values' tile at (p, o) is the first perceptron at flat row r, column o. -/
theorem valuesTile_eq (W2 : Arr2 2048 512) (B2 : Arr2 1 512) (w2 : Vec Ideal S2048x512 .bf16) (b2 : Vec Ideal S1x512 .f32)
    (o : Fin 512) (hw2 : ∀ h : Fin 2048, w2 (ix2 h o) = W2 (ix2 h o)) (hb2 : b2 (ix2 0 o) = B2 (ix2 0 o)) :
    k0_pay4 (k0_pay6 x0 w b w2 b2) (ix2 p o) = perceptronFlat X W1 B1 W2 B2 r o := by
  show k0_pay6 x0 w b w2 b2 (ix2 p o) = _
  rw [valuesTile_apply, hb2]
  unfold perceptronFlat
  refine congrArg₂ (· + ·) ?_ rfl
  exact Finset.sum_congr rfl fun h _ => by rw [hiddenTile_eq X W1 B1 x0 w b p r hx hw hb h, hw2 h]

/-- The second perceptron's tile with its bias, at (p, o), is the second perceptron at flat row r, column o. -/
theorem secondTile_eq (W2 : Arr2 2048 256) (B2 : Arr2 1 256) (w2 : Vec Ideal S2048x256 .bf16) (b2 : Vec Ideal S1x256 .f32)
    (o : Fin 256) (hw2 : ∀ h : Fin 2048, w2 (ix2 h o) = W2 (ix2 h o)) (hb2 : b2 (ix2 0 o) = B2 (ix2 0 o)) :
    k0_pay1 (k0_pay7 x0 w b w2) b2 (ix2 p o) = perceptronFlat X W1 B1 W2 B2 r o := by
  rw [secondBias_apply, secondTile_apply, hb2]
  unfold perceptronFlat
  refine congrArg₂ (· + ·) ?_ rfl
  exact Finset.sum_congr rfl fun h _ => by rw [hiddenTile_eq X W1 B1 x0 w b p r hx hw hb h, hw2 h]

/-- The keys' tile: its columns 0..127. -/
theorem keysTile_eq (W2 : Arr2 2048 256) (B2 : Arr2 1 256) (w2 : Vec Ideal S2048x256 .bf16) (b2 : Vec Ideal S1x256 .f32)
    (q : Fin 128) (hw2 : ∀ (h : Fin 2048) (o : Fin 256), w2 (ix2 h o) = W2 (ix2 h o)) (hb2 : ∀ o : Fin 256, b2 (ix2 0 o) = B2 (ix2 0 o)) :
    k0_pay2 (k0_pay7 x0 w b w2) b2 (ix2 p q)
      = perceptronFlat X W1 B1 W2 B2 r ⟨q.val, by have := q.isLt; omega⟩ := by
  show extractStridedSlice S512x128 ![0, 0] (k0_pay1 (k0_pay7 x0 w b w2) b2) slices_S512x256_o0_0_S512x128 (ix2 p q) = _
  rw [lowCols_apply]
  exact secondTile_eq X W1 B1 x0 w b p r hx hw hb W2 B2 w2 b2 _ (fun h => hw2 h _) (hb2 _)

/-- The queries' tile: its columns 128..255. -/
theorem queriesTile_eq (W2 : Arr2 2048 256) (B2 : Arr2 1 256) (w2 : Vec Ideal S2048x256 .bf16) (b2 : Vec Ideal S1x256 .f32)
    (q : Fin 128) (hw2 : ∀ (h : Fin 2048) (o : Fin 256), w2 (ix2 h o) = W2 (ix2 h o)) (hb2 : ∀ o : Fin 256, b2 (ix2 0 o) = B2 (ix2 0 o)) :
    k0_pay3 (k0_pay7 x0 w b w2) b2 (ix2 p q)
      = perceptronFlat X W1 B1 W2 B2 r ⟨128 + q.val, by have := q.isLt; omega⟩ := by
  show extractStridedSlice S512x128 ![0, 128] (k0_pay1 (k0_pay7 x0 w b w2) b2) slices_S512x256_o0_128_S512x128 (ix2 p q) = _
  rw [highCols_apply]
  exact secondTile_eq X W1 B1 x0 w b p r hx hw hb W2 B2 w2 b2 _ (fun h => hw2 h _) (hb2 _)

end Point

/-! ## From the tiles to the arrays -/

theorem zeroOffsets : (![0, 0] : Fin 2 → Nat) = fun _ => 0 := funext fun a => by fin_cases a <;> rfl

/-- The index maps over the grid: the rows' window and the three results' windows sit at tile t of the rows, the
    weights' and biases' windows at their one block. -/
theorem tile_idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- The rows' block at tile t holds flat rows 512·t … 512·t + 511. -/
theorem rows_read (c : Dev nD) (t : Fin cfg0.N) (p d : Fin 512) (r : Fin 16384) (hr : r.val = t.val * 512 + p.val) :
    iblk0 V c 0 t (ix2 p d) = V c main_v0 (ix2 r d) := by
  obtain ⟨⟨e0, e1⟩, -⟩ := tile_idx t
  show V c main_v0 (((cfg0.win 0).blk t).view.emb (ix2 p d)) = V c main_v0 (ix2 r d)
  refine congrArg (V c main_v0) (funext fun a => Fin.ext ?_)
  match a with
  | ⟨0, _⟩ => show win0_0.index t (0 : Fin 2) * 512 + 1 * p.val = r.val; rw [e0, hr]; omega
  | ⟨1, _⟩ => show win0_0.index t (1 : Fin 2) * 512 + 1 * d.val = d.val; rw [e1]; omega

/-! The weights' and biases' blocks are their whole arrays. -/

theorem valuesW1_read (c : Dev nD) (t : Fin cfg0.N) (a0 : Fin 512) (a1 : Fin 2048) :
    iblk0 V c 1 t (ix2 a0 a1) = V c main_v2 (ix2 a0 a1) := by
  have e := (tile_idx t).2.1
  show V c main_v2 (((cfg0.win 1).blk t).view.emb (ix2 a0 a1)) = V c main_v2 (ix2 a0 a1)
  refine congrArg (V c main_v2) (funext fun a => Fin.ext ?_)
  match a with
  | ⟨0, _⟩ => show win0_1.index t (0 : Fin 2) * 512 + 1 * a0.val = a0.val; rw [e.1]; omega
  | ⟨1, _⟩ => show win0_1.index t (1 : Fin 2) * 2048 + 1 * a1.val = a1.val; rw [e.2]; omega

theorem valuesB1_read (c : Dev nD) (t : Fin cfg0.N) (a0 : Fin 1) (a1 : Fin 2048) :
    iblk0 V c 2 t (ix2 a0 a1) = V c main_v9 (ix2 a0 a1) := by
  have e := (tile_idx t).2.2.1
  show V c main_v9 (((cfg0.win 2).blk t).view.emb (ix2 a0 a1)) = V c main_v9 (ix2 a0 a1)
  refine congrArg (V c main_v9) (funext fun a => Fin.ext ?_)
  match a with
  | ⟨0, _⟩ => show win0_2.index t (0 : Fin 2) * 1 + 1 * a0.val = a0.val; rw [e.1]; omega
  | ⟨1, _⟩ => show win0_2.index t (1 : Fin 2) * 2048 + 1 * a1.val = a1.val; rw [e.2]; omega

theorem valuesW2_read (c : Dev nD) (t : Fin cfg0.N) (a0 : Fin 2048) (a1 : Fin 512) :
    iblk0 V c 3 t (ix2 a0 a1) = V c main_v4 (ix2 a0 a1) := by
  have e := (tile_idx t).2.2.2.1
  show V c main_v4 (((cfg0.win 3).blk t).view.emb (ix2 a0 a1)) = V c main_v4 (ix2 a0 a1)
  refine congrArg (V c main_v4) (funext fun a => Fin.ext ?_)
  match a with
  | ⟨0, _⟩ => show win0_3.index t (0 : Fin 2) * 2048 + 1 * a0.val = a0.val; rw [e.1]; omega
  | ⟨1, _⟩ => show win0_3.index t (1 : Fin 2) * 512 + 1 * a1.val = a1.val; rw [e.2]; omega

theorem valuesB2_read (c : Dev nD) (t : Fin cfg0.N) (a0 : Fin 1) (a1 : Fin 512) :
    iblk0 V c 4 t (ix2 a0 a1) = V c main_v10 (ix2 a0 a1) := by
  have e := (tile_idx t).2.2.2.2.1
  show V c main_v10 (((cfg0.win 4).blk t).view.emb (ix2 a0 a1)) = V c main_v10 (ix2 a0 a1)
  refine congrArg (V c main_v10) (funext fun a => Fin.ext ?_)
  match a with
  | ⟨0, _⟩ => show win0_4.index t (0 : Fin 2) * 1 + 1 * a0.val = a0.val; rw [e.1]; omega
  | ⟨1, _⟩ => show win0_4.index t (1 : Fin 2) * 512 + 1 * a1.val = a1.val; rw [e.2]; omega

theorem secondW1_read (c : Dev nD) (t : Fin cfg0.N) (a0 : Fin 512) (a1 : Fin 2048) :
    iblk0 V c 5 t (ix2 a0 a1) = V c main_v6 (ix2 a0 a1) := by
  have e := (tile_idx t).2.2.2.2.2.1
  show V c main_v6 (((cfg0.win 5).blk t).view.emb (ix2 a0 a1)) = V c main_v6 (ix2 a0 a1)
  refine congrArg (V c main_v6) (funext fun a => Fin.ext ?_)
  match a with
  | ⟨0, _⟩ => show win0_5.index t (0 : Fin 2) * 512 + 1 * a0.val = a0.val; rw [e.1]; omega
  | ⟨1, _⟩ => show win0_5.index t (1 : Fin 2) * 2048 + 1 * a1.val = a1.val; rw [e.2]; omega

theorem secondB1_read (c : Dev nD) (t : Fin cfg0.N) (a0 : Fin 1) (a1 : Fin 2048) :
    iblk0 V c 6 t (ix2 a0 a1) = V c main_v11 (ix2 a0 a1) := by
  have e := (tile_idx t).2.2.2.2.2.2.1
  show V c main_v11 (((cfg0.win 6).blk t).view.emb (ix2 a0 a1)) = V c main_v11 (ix2 a0 a1)
  refine congrArg (V c main_v11) (funext fun a => Fin.ext ?_)
  match a with
  | ⟨0, _⟩ => show win0_6.index t (0 : Fin 2) * 1 + 1 * a0.val = a0.val; rw [e.1]; omega
  | ⟨1, _⟩ => show win0_6.index t (1 : Fin 2) * 2048 + 1 * a1.val = a1.val; rw [e.2]; omega

theorem secondW2_read (c : Dev nD) (t : Fin cfg0.N) (a0 : Fin 2048) (a1 : Fin 256) :
    iblk0 V c 7 t (ix2 a0 a1) = V c main_v8 (ix2 a0 a1) := by
  have e := (tile_idx t).2.2.2.2.2.2.2.1
  show V c main_v8 (((cfg0.win 7).blk t).view.emb (ix2 a0 a1)) = V c main_v8 (ix2 a0 a1)
  refine congrArg (V c main_v8) (funext fun a => Fin.ext ?_)
  match a with
  | ⟨0, _⟩ => show win0_7.index t (0 : Fin 2) * 2048 + 1 * a0.val = a0.val; rw [e.1]; omega
  | ⟨1, _⟩ => show win0_7.index t (1 : Fin 2) * 256 + 1 * a1.val = a1.val; rw [e.2]; omega

theorem secondB2_read (c : Dev nD) (t : Fin cfg0.N) (a0 : Fin 1) (a1 : Fin 256) :
    iblk0 V c 8 t (ix2 a0 a1) = V c main_v12 (ix2 a0 a1) := by
  have e := (tile_idx t).2.2.2.2.2.2.2.2.1
  show V c main_v12 (((cfg0.win 8).blk t).view.emb (ix2 a0 a1)) = V c main_v12 (ix2 a0 a1)
  refine congrArg (V c main_v12) (funext fun a => Fin.ext ?_)
  match a with
  | ⟨0, _⟩ => show win0_8.index t (0 : Fin 2) * 1 + 1 * a0.val = a0.val; rw [e.1]; omega
  | ⟨1, _⟩ => show win0_8.index t (1 : Fin 2) * 256 + 1 * a1.val = a1.val; rw [e.2]; omega

/-! ### The keys -/

/-- What tile t writes back to the keys' array is its block of the second perceptron's columns 0..127 over flat rows. -/
theorem keys_flushed (c : Dev nD) (t : Fin cfg0.N) :
    (dat0 (F := Ideal) V c).flushed 9 t = ((cfg0.win 9).blk t).view.read (Elt Ideal) (fun i : S16384x128.Idx =>
      perceptronFlat (O := 256) (V c main_v0) (V c main_v6) (V c main_v11) (V c main_v8) (V c main_v12) (i 0)
        ⟨(i 1).val, by have h : (i 1).val < 128 := (i 1).isLt; omega⟩) := by
  show (cfg0.win 9).cut (grid0.coords t) ((dat0 V c).after 9 t) = _
  rw [after0_9]
  unfold out0_9
  rw [View.canon_unit_zero zeroOffsets]
  simp only [View.ld_unit_zero (S := S512x512) zeroOffsets, View.ld_unit_zero (S := S512x2048) zeroOffsets,
    View.ld_unit_zero (S := S1x2048) zeroOffsets, View.ld_unit_zero (S := S2048x256) zeroOffsets,
    View.ld_unit_zero (S := S1x256) zeroOffsets]
  funext j
  obtain ⟨p, q, rfl⟩ : ∃ (p : Fin 512) (q : Fin 128), j = ix2 p q := ⟨j 0, j 1, eq_ix2 j⟩
  obtain ⟨e0, e1⟩ := (tile_idx t).2.2.2.2.2.2.2.2.2.1
  have hp := p.isLt
  have hq := q.isLt
  have ht : t.val < 32 := t.isLt
  refine (keysTile_eq (V c main_v0) (V c main_v6) (V c main_v11) (iblk0 V c 0 t) (iblk0 V c 5 t) (iblk0 V c 6 t) p
    ⟨t.val * 512 + p.val, by omega⟩ (fun d => rows_read V c t p d _ rfl) (fun d h => secondW1_read V c t d h)
    (fun h => secondB1_read V c t 0 h) (V c main_v8) (V c main_v12) (iblk0 V c 7 t) (iblk0 V c 8 t) q
    (fun h o => secondW2_read V c t h o) (fun o => secondB2_read V c t 0 o)).trans ?_
  show perceptronFlat (O := 256) (V c main_v0) (V c main_v6) (V c main_v11) (V c main_v8) (V c main_v12) _ _
    = perceptronFlat (O := 256) (V c main_v0) (V c main_v6) (V c main_v11) (V c main_v8) (V c main_v12)
        ((((cfg0.win 9).blk t).view.emb (ix2 p q)) 0) ⟨((((cfg0.win 9).blk t).view.emb (ix2 p q)) 1).val, _⟩
  refine congrArg₂ (perceptronFlat (O := 256) (V c main_v0) (V c main_v6) (V c main_v11) (V c main_v8) (V c main_v12)) (Fin.ext ?_) (Fin.ext ?_)
  · show t.val * 512 + p.val = win0_9.index t (0 : Fin 2) * 512 + 1 * p.val; rw [e0]; omega
  · show q.val = (win0_9.index t (1 : Fin 2) * 128 + 1 * q.val); rw [e1]; omega

/-- An index of the keys' array is in tile t's block iff each coordinate is in the block's range on its axis. -/
theorem mem_keys_blk (t : Fin cfg0.N) (i : S16384x128.Idx) :
    i ∈ ((cfg0.win 9).blk t).view.set ↔ ∀ a : Fin 2, win0_9.index t a * S512x128.size a ≤ (i a).val ∧ (i a).val < win0_9.index t a * S512x128.size a + S512x128.size a := by
  show i ∈ ((View.whole main_v13_0).slice (win0_9.rect t)).set ↔ _
  rw [View.set_slice_whole, Rect.mem_set_unit]
  exact Iff.rfl

/-- Flat row r lies in tile r / 512. -/
theorem keys_cover (i : S16384x128.Idx) :
    ∃ t : Fin cfg0.N, (cfg0.win 9).flush t = true ∧ i ∈ ((cfg0.win 9).blk t).view.set := by
  have hi0 : (i 0).val < 16384 := (i 0).isLt
  have hi1 : (i 1).val < 128 := (i 1).isLt
  obtain ⟨t, ht⟩ : ∃ t : Fin cfg0.N, t.val = (i 0).val / 512 := ⟨⟨(i 0).val / 512, by show _ < 32; omega⟩, rfl⟩
  obtain ⟨e0, e1⟩ := (tile_idx t).2.2.2.2.2.2.2.2.2.1
  refine ⟨t, flush0_9 t, ?_⟩
  rw [mem_keys_blk]
  intro a
  match a with
  | ⟨0, _⟩ => show win0_9.index t (0 : Fin 2) * 512 ≤ (i 0).val ∧ (i 0).val < win0_9.index t (0 : Fin 2) * 512 + 512; rw [e0, ht]; omega
  | ⟨1, _⟩ => show win0_9.index t (1 : Fin 2) * 128 ≤ (i 1).val ∧ (i 1).val < win0_9.index t (1 : Fin 2) * 128 + 128; rw [e1]; omega

/-- After the first call, the keys' array holds columns 0..127 of the second perceptron over flat rows. -/
theorem mlp_keys (c : Dev nD) :
    (dat0 (F := Ideal) V c).arrAt 9 cfg0.N = fun i : S16384x128.Idx =>
      perceptronFlat (O := 256) (V c main_v0) (V c main_v6) (V c main_v11) (V c main_v8) (V c main_v12) (i 0)
        ⟨(i 1).val, by have h : (i 1).val < 128 := (i 1).isLt; omega⟩ :=
  (dat0 (F := Ideal) V c).arrAt_eq_of_cover 9 _ (fun t _ => keys_flushed V c t) keys_cover

/-! ### The queries -/

/-- What tile t writes back to the queries' array is its block of the second perceptron's columns 128..255 over flat rows. -/
theorem queries_flushed (c : Dev nD) (t : Fin cfg0.N) :
    (dat0 (F := Ideal) V c).flushed 10 t = ((cfg0.win 10).blk t).view.read (Elt Ideal) (fun i : S16384x128.Idx =>
      perceptronFlat (O := 256) (V c main_v0) (V c main_v6) (V c main_v11) (V c main_v8) (V c main_v12) (i 0)
        ⟨128 + (i 1).val, by have h : (i 1).val < 128 := (i 1).isLt; omega⟩) := by
  show (cfg0.win 10).cut (grid0.coords t) ((dat0 V c).after 10 t) = _
  rw [after0_10]
  unfold out0_10
  rw [View.canon_unit_zero zeroOffsets]
  simp only [View.ld_unit_zero (S := S512x512) zeroOffsets, View.ld_unit_zero (S := S512x2048) zeroOffsets,
    View.ld_unit_zero (S := S1x2048) zeroOffsets, View.ld_unit_zero (S := S2048x256) zeroOffsets,
    View.ld_unit_zero (S := S1x256) zeroOffsets]
  funext j
  obtain ⟨p, q, rfl⟩ : ∃ (p : Fin 512) (q : Fin 128), j = ix2 p q := ⟨j 0, j 1, eq_ix2 j⟩
  obtain ⟨e0, e1⟩ := (tile_idx t).2.2.2.2.2.2.2.2.2.2.1
  have hp := p.isLt
  have hq := q.isLt
  have ht : t.val < 32 := t.isLt
  refine (queriesTile_eq (V c main_v0) (V c main_v6) (V c main_v11) (iblk0 V c 0 t) (iblk0 V c 5 t) (iblk0 V c 6 t) p
    ⟨t.val * 512 + p.val, by omega⟩ (fun d => rows_read V c t p d _ rfl) (fun d h => secondW1_read V c t d h)
    (fun h => secondB1_read V c t 0 h) (V c main_v8) (V c main_v12) (iblk0 V c 7 t) (iblk0 V c 8 t) q
    (fun h o => secondW2_read V c t h o) (fun o => secondB2_read V c t 0 o)).trans ?_
  show perceptronFlat (O := 256) (V c main_v0) (V c main_v6) (V c main_v11) (V c main_v8) (V c main_v12) _ _
    = perceptronFlat (O := 256) (V c main_v0) (V c main_v6) (V c main_v11) (V c main_v8) (V c main_v12)
        ((((cfg0.win 10).blk t).view.emb (ix2 p q)) 0) ⟨128 + ((((cfg0.win 10).blk t).view.emb (ix2 p q)) 1).val, _⟩
  refine congrArg₂ (perceptronFlat (O := 256) (V c main_v0) (V c main_v6) (V c main_v11) (V c main_v8) (V c main_v12)) (Fin.ext ?_) (Fin.ext ?_)
  · show t.val * 512 + p.val = win0_10.index t (0 : Fin 2) * 512 + 1 * p.val; rw [e0]; omega
  · show 128 + q.val = 128 + (win0_10.index t (1 : Fin 2) * 128 + 1 * q.val); rw [e1]; omega

/-- An index of the queries' array is in tile t's block iff each coordinate is in the block's range on its axis. -/
theorem mem_queries_blk (t : Fin cfg0.N) (i : S16384x128.Idx) :
    i ∈ ((cfg0.win 10).blk t).view.set ↔ ∀ a : Fin 2, win0_10.index t a * S512x128.size a ≤ (i a).val ∧ (i a).val < win0_10.index t a * S512x128.size a + S512x128.size a := by
  show i ∈ ((View.whole main_v13_1).slice (win0_10.rect t)).set ↔ _
  rw [View.set_slice_whole, Rect.mem_set_unit]
  exact Iff.rfl

/-- Flat row r lies in tile r / 512. -/
theorem queries_cover (i : S16384x128.Idx) :
    ∃ t : Fin cfg0.N, (cfg0.win 10).flush t = true ∧ i ∈ ((cfg0.win 10).blk t).view.set := by
  have hi0 : (i 0).val < 16384 := (i 0).isLt
  have hi1 : (i 1).val < 128 := (i 1).isLt
  obtain ⟨t, ht⟩ : ∃ t : Fin cfg0.N, t.val = (i 0).val / 512 := ⟨⟨(i 0).val / 512, by show _ < 32; omega⟩, rfl⟩
  obtain ⟨e0, e1⟩ := (tile_idx t).2.2.2.2.2.2.2.2.2.2.1
  refine ⟨t, flush0_10 t, ?_⟩
  rw [mem_queries_blk]
  intro a
  match a with
  | ⟨0, _⟩ => show win0_10.index t (0 : Fin 2) * 512 ≤ (i 0).val ∧ (i 0).val < win0_10.index t (0 : Fin 2) * 512 + 512; rw [e0, ht]; omega
  | ⟨1, _⟩ => show win0_10.index t (1 : Fin 2) * 128 ≤ (i 1).val ∧ (i 1).val < win0_10.index t (1 : Fin 2) * 128 + 128; rw [e1]; omega

/-- … the queries' array its columns 128..255, -/
theorem mlp_queries (c : Dev nD) :
    (dat0 (F := Ideal) V c).arrAt 10 cfg0.N = fun i : S16384x128.Idx =>
      perceptronFlat (O := 256) (V c main_v0) (V c main_v6) (V c main_v11) (V c main_v8) (V c main_v12) (i 0)
        ⟨128 + (i 1).val, by have h : (i 1).val < 128 := (i 1).isLt; omega⟩ :=
  (dat0 (F := Ideal) V c).arrAt_eq_of_cover 10 _ (fun t _ => queries_flushed V c t) queries_cover

/-! ### The values -/

/-- What tile t writes back to the values' array is its block of the first perceptron over flat rows. -/
theorem values_flushed (c : Dev nD) (t : Fin cfg0.N) :
    (dat0 (F := Ideal) V c).flushed 11 t = ((cfg0.win 11).blk t).view.read (Elt Ideal) (fun i : S16384x512.Idx =>
      perceptronFlat (O := 512) (V c main_v0) (V c main_v2) (V c main_v9) (V c main_v4) (V c main_v10) (i 0) (i 1)) := by
  show (cfg0.win 11).cut (grid0.coords t) ((dat0 V c).after 11 t) = _
  rw [after0_11]
  unfold out0_11
  rw [View.canon_unit_zero zeroOffsets]
  simp only [View.ld_unit_zero (S := S512x512) zeroOffsets, View.ld_unit_zero (S := S512x2048) zeroOffsets,
    View.ld_unit_zero (S := S1x2048) zeroOffsets, View.ld_unit_zero (S := S2048x512) zeroOffsets,
    View.ld_unit_zero (S := S1x512) zeroOffsets]
  funext j
  obtain ⟨p, o, rfl⟩ : ∃ (p : Fin 512) (o : Fin 512), j = ix2 p o := ⟨j 0, j 1, eq_ix2 j⟩
  obtain ⟨e0, e1⟩ := (tile_idx t).2.2.2.2.2.2.2.2.2.2.2
  have hp := p.isLt
  have ht : t.val < 32 := t.isLt
  refine (valuesTile_eq (V c main_v0) (V c main_v2) (V c main_v9) (iblk0 V c 0 t) (iblk0 V c 1 t) (iblk0 V c 2 t) p
    ⟨t.val * 512 + p.val, by omega⟩ (fun d => rows_read V c t p d _ rfl) (fun d h => valuesW1_read V c t d h)
    (fun h => valuesB1_read V c t 0 h) (V c main_v4) (V c main_v10) (iblk0 V c 3 t) (iblk0 V c 4 t) o
    (fun h => valuesW2_read V c t h o) (valuesB2_read V c t 0 o)).trans ?_
  show perceptronFlat (O := 512) (V c main_v0) (V c main_v2) (V c main_v9) (V c main_v4) (V c main_v10) _ _
    = perceptronFlat (O := 512) (V c main_v0) (V c main_v2) (V c main_v9) (V c main_v4) (V c main_v10)
        ((((cfg0.win 11).blk t).view.emb (ix2 p o)) 0) ((((cfg0.win 11).blk t).view.emb (ix2 p o)) 1)
  refine congrArg₂ (perceptronFlat (O := 512) (V c main_v0) (V c main_v2) (V c main_v9) (V c main_v4) (V c main_v10)) (Fin.ext ?_) (Fin.ext ?_)
  · show t.val * 512 + p.val = win0_11.index t (0 : Fin 2) * 512 + 1 * p.val; rw [e0]; omega
  · show o.val = win0_11.index t (1 : Fin 2) * 512 + 1 * o.val; rw [e1]; omega

/-- An index of the values' array is in tile t's block iff each coordinate is in the block's range on its axis. -/
theorem mem_values_blk (t : Fin cfg0.N) (i : S16384x512.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v13_2).slice (win0_11.rect t)).set ↔ _
  rw [View.set_slice_whole, Rect.mem_set_unit]
  exact Iff.rfl

/-- Flat row r lies in tile r / 512. -/
theorem values_cover (i : S16384x512.Idx) :
    ∃ t : Fin cfg0.N, (cfg0.win 11).flush t = true ∧ i ∈ ((cfg0.win 11).blk t).view.set := by
  have hi0 : (i 0).val < 16384 := (i 0).isLt
  have hi1 : (i 1).val < 512 := (i 1).isLt
  obtain ⟨t, ht⟩ : ∃ t : Fin cfg0.N, t.val = (i 0).val / 512 := ⟨⟨(i 0).val / 512, by show _ < 32; omega⟩, rfl⟩
  obtain ⟨e0, e1⟩ := (tile_idx t).2.2.2.2.2.2.2.2.2.2.2
  refine ⟨t, flush0_11 t, ?_⟩
  rw [mem_values_blk]
  intro a
  match a with
  | ⟨0, _⟩ => show win0_11.index t (0 : Fin 2) * 512 ≤ (i 0).val ∧ (i 0).val < win0_11.index t (0 : Fin 2) * 512 + 512; rw [e0, ht]; omega
  | ⟨1, _⟩ => show win0_11.index t (1 : Fin 2) * 512 ≤ (i 1).val ∧ (i 1).val < win0_11.index t (1 : Fin 2) * 512 + 512; rw [e1]; omega

/-- … and the values' array the first perceptron. -/
theorem mlp_values (c : Dev nD) :
    (dat0 (F := Ideal) V c).arrAt 11 cfg0.N = fun i : S16384x512.Idx =>
      perceptronFlat (O := 512) (V c main_v0) (V c main_v2) (V c main_v9) (V c main_v4) (V c main_v10) (i 0) (i 1) :=
  (dat0 (F := Ideal) V c).arrAt_eq_of_cover 11 _ (fun t _ => values_flushed V c t) values_cover

end Cert.KernelIdeal.MlpArray

end
-- ==== Proof.KernelValue.lean ====
/-
  The kernel program's result, as one function of its nine arguments.

  The program is two calls among host operations. Before the first call the host flattens x to 16384 rows, transposes
  the four weight matrices (a change of float format first, which is the identity on the extended reals) and lays each
  bias out as a one-row matrix. The first call computes both perceptrons over flat rows (Proof/MlpArray.lean); its three
  results are reshaped back to [8, 2048, ·], flat row r becoming (r / 2048, r % 2048), and the second call takes the
  attention of them (Proof/AttnArray.lean). Read back through these layouts, the flat perceptron of the laid-out
  arguments is the perceptron of the arguments themselves (`Spec.perceptronFlat_eq`), so the result is
  `Spec.resultSumThenDivide` of the nine arguments.
-/
import proofs.«406603_j84327387890091_3_alg».proof.Proof.Gen.KernelIdeal.Frame
import proofs.«406603_j84327387890091_3_alg».proof.Proof.Spec
import proofs.«406603_j84327387890091_3_alg».proof.Proof.AttnArray
import proofs.«406603_j84327387890091_3_alg».proof.Proof.MlpArray
import Idealize.ShloMosaic.Lib.StableHlo.Run
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.KernelIdeal.KernelValue

open Cert.KernelIdeal Cert.KernelIdeal.Gen Cert.Spec

variable (m : (ℓ : Loc nD τ sig) → Buf (Elt Ideal) ℓ) (ρ : Dev nD → PrngReg)

/-! ## What the first call finds: the arguments laid out by the host -/

/-- Flat row 2048·b + n of x is row (b, n). -/
theorem x_flat (c : Dev nD) (b : Fin 8) (n : Fin 2048) (d : Fin 512) :
    V1 m ρ c main_v0 (ix2 ⟨2048 * b.val + n.val, by omega⟩ d) = m ((c : Thread nD τ).loc main_arg0) (ix3 b n d) := by
  have e : (V1 m ρ c main_v0 : S16384x512.Idx → EReal)
      = shapeCast S16384x512 (m ((c : Thread nD τ).loc main_arg0)) shapeCasts_S8x2048x512_S16384x512 := by
    show StableHlo.after hostOps0 (W0 m ρ c) (Proc.devRef .tc main_v0) = _
    after_results
    rfl
  refine (congrFun e _).trans (shapeCast_apply _ _ _ (ix3 b n d) ?_)
  rw [Shape.rowMajor_val_three, Shape.rowMajor_val_two]
  show (b.val * 2048 + n.val) * 512 + d.val = (2048 * b.val + n.val) * 512 + d.val
  omega

/-- The four weight matrices arrive transposed. -/
theorem we1_t (c : Dev nD) (d : Fin 512) (h : Fin 2048) :
    V1 m ρ c main_v2 (ix2 d h) = m ((c : Thread nD τ).loc main_arg1) (ix2 h d) := by
  have e : (V1 m ρ c main_v2 : S512x2048.Idx → EReal)
      = transpose (α := EReal) S512x2048 [1, 0] (m ((c : Thread nD τ).loc main_arg1)) transposes_S2048x512_S512x2048_1_0 := by
    show StableHlo.after hostOps0 (W0 m ρ c) (Proc.devRef .tc main_v2) = _
    after_results
    rfl
  refine (congrFun e _).trans (transpose_apply _ _ _ _ (ix2 h d) fun a => ?_)
  match a with | ⟨0, _⟩ => rfl | ⟨1, _⟩ => rfl

theorem we2_t (c : Dev nD) (h : Fin 2048) (d : Fin 512) :
    V1 m ρ c main_v4 (ix2 h d) = m ((c : Thread nD τ).loc main_arg3) (ix2 d h) := by
  have e : (V1 m ρ c main_v4 : S2048x512.Idx → EReal)
      = transpose (α := EReal) S2048x512 [1, 0] (m ((c : Thread nD τ).loc main_arg3)) transposes_S512x2048_S2048x512_1_0 := by
    show StableHlo.after hostOps0 (W0 m ρ c) (Proc.devRef .tc main_v4) = _
    after_results
    rfl
  refine (congrFun e _).trans (transpose_apply _ _ _ _ (ix2 d h) fun a => ?_)
  match a with | ⟨0, _⟩ => rfl | ⟨1, _⟩ => rfl

theorem wk1_t (c : Dev nD) (d : Fin 512) (h : Fin 2048) :
    V1 m ρ c main_v6 (ix2 d h) = m ((c : Thread nD τ).loc main_arg5) (ix2 h d) := by
  have e : (V1 m ρ c main_v6 : S512x2048.Idx → EReal)
      = transpose (α := EReal) S512x2048 [1, 0] (m ((c : Thread nD τ).loc main_arg5)) transposes_S2048x512_S512x2048_1_0 := by
    show StableHlo.after hostOps0 (W0 m ρ c) (Proc.devRef .tc main_v6) = _
    after_results
    rfl
  refine (congrFun e _).trans (transpose_apply _ _ _ _ (ix2 h d) fun a => ?_)
  match a with | ⟨0, _⟩ => rfl | ⟨1, _⟩ => rfl

theorem wk2_t (c : Dev nD) (h : Fin 2048) (k : Fin 256) :
    V1 m ρ c main_v8 (ix2 h k) = m ((c : Thread nD τ).loc main_arg7) (ix2 k h) := by
  have e : (V1 m ρ c main_v8 : S2048x256.Idx → EReal)
      = transpose (α := EReal) S2048x256 [1, 0] (m ((c : Thread nD τ).loc main_arg7)) transposes_S256x2048_S2048x256_1_0 := by
    show StableHlo.after hostOps0 (W0 m ρ c) (Proc.devRef .tc main_v8) = _
    after_results
    rfl
  refine (congrFun e _).trans (transpose_apply _ _ _ _ (ix2 k h) fun a => ?_)
  match a with | ⟨0, _⟩ => rfl | ⟨1, _⟩ => rfl

/-- The four biases arrive as one-row matrices. -/
theorem be1_row (c : Dev nD) (h : Fin 2048) :
    V1 m ρ c main_v9 (ix2 0 h) = m ((c : Thread nD τ).loc main_arg2) (ix1 h) := by
  have e : (V1 m ρ c main_v9 : S1x2048.Idx → EReal)
      = shapeCast S1x2048 (m ((c : Thread nD τ).loc main_arg2)) shapeCasts_S2048_S1x2048 := by
    show StableHlo.after hostOps0 (W0 m ρ c) (Proc.devRef .tc main_v9) = _
    after_results
    rfl
  refine (congrFun e _).trans (shapeCast_apply _ _ _ (ix1 h) ?_)
  rw [Shape.rowMajor_val_two, Shape.rowMajor_val_one]
  show h.val = 0 * 2048 + h.val
  omega

theorem be2_row (c : Dev nD) (d : Fin 512) :
    V1 m ρ c main_v10 (ix2 0 d) = m ((c : Thread nD τ).loc main_arg4) (ix1 d) := by
  have e : (V1 m ρ c main_v10 : S1x512.Idx → EReal)
      = shapeCast S1x512 (m ((c : Thread nD τ).loc main_arg4)) shapeCasts_S512_S1x512 := by
    show StableHlo.after hostOps0 (W0 m ρ c) (Proc.devRef .tc main_v10) = _
    after_results
    rfl
  refine (congrFun e _).trans (shapeCast_apply _ _ _ (ix1 d) ?_)
  rw [Shape.rowMajor_val_two, Shape.rowMajor_val_one]
  show d.val = 0 * 512 + d.val
  omega

theorem bk1_row (c : Dev nD) (h : Fin 2048) :
    V1 m ρ c main_v11 (ix2 0 h) = m ((c : Thread nD τ).loc main_arg6) (ix1 h) := by
  have e : (V1 m ρ c main_v11 : S1x2048.Idx → EReal)
      = shapeCast S1x2048 (m ((c : Thread nD τ).loc main_arg6)) shapeCasts_S2048_S1x2048 := by
    show StableHlo.after hostOps0 (W0 m ρ c) (Proc.devRef .tc main_v11) = _
    after_results
    rfl
  refine (congrFun e _).trans (shapeCast_apply _ _ _ (ix1 h) ?_)
  rw [Shape.rowMajor_val_two, Shape.rowMajor_val_one]
  show h.val = 0 * 2048 + h.val
  omega

theorem bk2_row (c : Dev nD) (k : Fin 256) :
    V1 m ρ c main_v12 (ix2 0 k) = m ((c : Thread nD τ).loc main_arg8) (ix1 k) := by
  have e : (V1 m ρ c main_v12 : S1x256.Idx → EReal)
      = shapeCast S1x256 (m ((c : Thread nD τ).loc main_arg8)) shapeCasts_S256_S1x256 := by
    show StableHlo.after hostOps0 (W0 m ρ c) (Proc.devRef .tc main_v12) = _
    after_results
    rfl
  refine (congrFun e _).trans (shapeCast_apply _ _ _ (ix1 k) ?_)
  rw [Shape.rowMajor_val_two, Shape.rowMajor_val_one]
  show k.val = 0 * 256 + k.val
  omega

/-! ## What the second call finds: the first call's results, unflattened -/

/-- The keys' array at (b, n, k) is the first call's first result at flat row 2048·b + n: the second perceptron's
    column k. -/
theorem keys_entry (c : Dev nD) (b : Fin 8) (n : Fin 2048) (k : Fin 128) :
    V3 m ρ c main_v14 (ix3 b n k)
      = keys (m ((c : Thread nD τ).loc main_arg0)) (m ((c : Thread nD τ).loc main_arg5)) (m ((c : Thread nD τ).loc main_arg6))
          (m ((c : Thread nD τ).loc main_arg7)) (m ((c : Thread nD τ).loc main_arg8)) b n k := by
  have e : (V3 m ρ c main_v14 : S8x2048x128.Idx → EReal)
      = shapeCast S8x2048x128 (W2 m ρ c (Proc.devRef .tc main_v13_0)) shapeCasts_S16384x128_S8x2048x128 := by
    show StableHlo.after hostOps1 (W2 m ρ c) (Proc.devRef .tc main_v14) = _
    after_results
    rfl
  refine (congrFun e _).trans ((shapeCast_apply _ _ _ (ix2 (⟨2048 * b.val + n.val, by omega⟩ : Fin 16384) k) ?_).trans ?_)
  · rw [Shape.rowMajor_val_three, Shape.rowMajor_val_two]
    show (2048 * b.val + n.val) * 128 + k.val = (b.val * 2048 + n.val) * 128 + k.val
    omega
  · have hw : W2 m ρ c (Proc.devRef .tc main_v13_0) = (dat0 (V1 m ρ) c).arrAt 9 cfg0.N := W2_arr m ρ c 9
    rw [hw, MlpArray.mlp_keys (V1 m ρ) c]
    exact perceptronFlat_eq _ _ _ _ _ _ _ _ _ _ (x_flat m ρ c) (wk1_t m ρ c) (bk1_row m ρ c) (wk2_t m ρ c) (bk2_row m ρ c) b n _

/-- The queries' array likewise, from the second result: column 128 + k. -/
theorem queries_entry (c : Dev nD) (b : Fin 8) (n : Fin 2048) (k : Fin 128) :
    V3 m ρ c main_v15 (ix3 b n k)
      = queries (m ((c : Thread nD τ).loc main_arg0)) (m ((c : Thread nD τ).loc main_arg5)) (m ((c : Thread nD τ).loc main_arg6))
          (m ((c : Thread nD τ).loc main_arg7)) (m ((c : Thread nD τ).loc main_arg8)) b n k := by
  have e : (V3 m ρ c main_v15 : S8x2048x128.Idx → EReal)
      = shapeCast S8x2048x128 (W2 m ρ c (Proc.devRef .tc main_v13_1)) shapeCasts_S16384x128_S8x2048x128 := by
    show StableHlo.after hostOps1 (W2 m ρ c) (Proc.devRef .tc main_v15) = _
    after_results
    rfl
  refine (congrFun e _).trans ((shapeCast_apply _ _ _ (ix2 (⟨2048 * b.val + n.val, by omega⟩ : Fin 16384) k) ?_).trans ?_)
  · rw [Shape.rowMajor_val_three, Shape.rowMajor_val_two]
    show (2048 * b.val + n.val) * 128 + k.val = (b.val * 2048 + n.val) * 128 + k.val
    omega
  · have hw : W2 m ρ c (Proc.devRef .tc main_v13_1) = (dat0 (V1 m ρ) c).arrAt 10 cfg0.N := W2_arr m ρ c 10
    rw [hw, MlpArray.mlp_queries (V1 m ρ) c]
    exact perceptronFlat_eq _ _ _ _ _ _ _ _ _ _ (x_flat m ρ c) (wk1_t m ρ c) (bk1_row m ρ c) (wk2_t m ρ c) (bk2_row m ρ c) b n _

/-- The values' array, from the third result: the first perceptron. -/
theorem values_entry (c : Dev nD) (b : Fin 8) (n : Fin 2048) (d : Fin 512) :
    V3 m ρ c main_v16 (ix3 b n d)
      = values (m ((c : Thread nD τ).loc main_arg0)) (m ((c : Thread nD τ).loc main_arg1)) (m ((c : Thread nD τ).loc main_arg2))
          (m ((c : Thread nD τ).loc main_arg3)) (m ((c : Thread nD τ).loc main_arg4)) b n d := by
  have e : (V3 m ρ c main_v16 : S8x2048x512.Idx → EReal)
      = shapeCast S8x2048x512 (W2 m ρ c (Proc.devRef .tc main_v13_2)) shapeCasts_S16384x512_S8x2048x512 := by
    show StableHlo.after hostOps1 (W2 m ρ c) (Proc.devRef .tc main_v16) = _
    after_results
    rfl
  refine (congrFun e _).trans ((shapeCast_apply _ _ _ (ix2 (⟨2048 * b.val + n.val, by omega⟩ : Fin 16384) d) ?_).trans ?_)
  · rw [Shape.rowMajor_val_three, Shape.rowMajor_val_two]
    show (2048 * b.val + n.val) * 512 + d.val = (b.val * 2048 + n.val) * 512 + d.val
    omega
  · have hw : W2 m ρ c (Proc.devRef .tc main_v13_2) = (dat0 (V1 m ρ) c).arrAt 11 cfg0.N := W2_arr m ρ c 11
    rw [hw, MlpArray.mlp_values (V1 m ρ) c]
    exact perceptronFlat_eq _ _ _ _ _ _ _ _ _ _ (x_flat m ρ c) (we1_t m ρ c) (be1_row m ρ c) (we2_t m ρ c) (be2_row m ρ c) b n d

/-! ## The result -/

/-- The result buffer after the run: the attention, normalised at the end, of the two perceptrons of the arguments. -/
theorem result_eq (c : Dev nD) :
    W4 m ρ c (Proc.devRef .tc main_v17)
      = resultSumThenDivide (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  have hw : W4 m ρ c (Proc.devRef .tc main_v17) = (dat1 (V3 m ρ) c).arrAt 3 cfg1.N := W4_arr m ρ c 3
  rw [hw, AttnArray.attn_array (V3 m ρ) c]
  funext i
  unfold resultSumThenDivide
  have hq : (fun b n k => V3 m ρ c main_v15 (ix3 b n k)) = queries (m ((c : Thread nD τ).loc main_arg0)) (m ((c : Thread nD τ).loc main_arg5))
      (m ((c : Thread nD τ).loc main_arg6)) (m ((c : Thread nD τ).loc main_arg7)) (m ((c : Thread nD τ).loc main_arg8)) :=
    funext fun b => funext fun n => funext fun k => queries_entry m ρ c b n k
  have hk : (fun b n k => V3 m ρ c main_v14 (ix3 b n k)) = keys (m ((c : Thread nD τ).loc main_arg0)) (m ((c : Thread nD τ).loc main_arg5))
      (m ((c : Thread nD τ).loc main_arg6)) (m ((c : Thread nD τ).loc main_arg7)) (m ((c : Thread nD τ).loc main_arg8)) :=
    funext fun b => funext fun n => funext fun k => keys_entry m ρ c b n k
  have hv : (fun b n d => V3 m ρ c main_v16 (ix3 b n d)) = values (m ((c : Thread nD τ).loc main_arg0)) (m ((c : Thread nD τ).loc main_arg1))
      (m ((c : Thread nD τ).loc main_arg2)) (m ((c : Thread nD τ).loc main_arg3)) (m ((c : Thread nD τ).loc main_arg4)) :=
    funext fun b => funext fun n => funext fun d => values_entry m ρ c b n d
  rw [hq, hk, hv]

end Cert.KernelIdeal.KernelValue

end
-- ==== Proof.RefValue.lean ====
/-
  The reference's result term is the attention with every weight normalised before the sum, of the two perceptrons.
-/
import proofs.«406603_j84327387890091_3_alg».proof.Proof.Gen.ReferenceIdeal.Read
import proofs.«406603_j84327387890091_3_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Spec

section Stages

variable (x0 : (⟨S8x2048x512, .f32⟩ : BufTy).Contents (Elt Ideal)) (x1 : (⟨S2048x512, .f32⟩ : BufTy).Contents (Elt Ideal))
  (x2 : (⟨S2048, .f32⟩ : BufTy).Contents (Elt Ideal)) (x3 : (⟨S512x2048, .f32⟩ : BufTy).Contents (Elt Ideal))
  (x4 : (⟨S512, .f32⟩ : BufTy).Contents (Elt Ideal)) (x5 : (⟨S2048x512, .f32⟩ : BufTy).Contents (Elt Ideal))
  (x6 : (⟨S2048, .f32⟩ : BufTy).Contents (Elt Ideal)) (x7 : (⟨S256x2048, .f32⟩ : BufTy).Contents (Elt Ideal))
  (x8 : (⟨S256, .f32⟩ : BufTy).Contents (Elt Ideal))

/-! ## The two perceptrons -/

/-- The first perceptron's first layer with its relu, at (b, n, h), is the hidden layer of x, We1, be1. -/
theorem v4_eq (b : Fin 8) (n h : Fin 2048) :
    val_main_v4 (F := Ideal) x0 x1 x2 (ix3 b n h) = hidden x0 x1 x2 b n h := by
  rw [val_main_v4_apply, val_main_v3_apply, val_main_v0_apply, val_main_v2_apply, val_main_v1_apply,
    val_main_call0_v0_apply, val_main_call0_cst_apply]
  have el : ∀ k : Fin 512, lidx_main_v0 (ix3 b n h) k = ix3 b n k := fun k => funext fun a => Fin.ext (by
    match a with | ⟨0, _⟩ => rfl | ⟨1, _⟩ => rfl | ⟨2, _⟩ => rfl)
  have er : ∀ k : Fin 512, ridx_main_v0 (ix3 b n h) k = ix2 h k := fun k => funext fun a => Fin.ext (by
    match a with | ⟨0, _⟩ => rfl | ⟨1, _⟩ => rfl)
  have eb : idx_main_v1 (idx_main_v2 (ix3 b n h)) = ix1 h := funext fun a => Fin.ext (by
    match a with | ⟨0, _⟩ => rfl)
  simp only [el, er, eb]
  show max ((∑ k : Fin 512, x0 (ix3 b n k) * x1 (ix2 h k)) + x2 (ix1 h)) (Ideal.ofBits .f32 0x00000000#32) = _
  rw [Ideal.ofBits_zero_f32]
  rfl

/-- The second perceptron's first layer with its relu, at (b, n, h), is the hidden layer of x, Wk1, bk1. -/
theorem v13_eq (b : Fin 8) (n h : Fin 2048) :
    val_main_v13 (F := Ideal) x0 x5 x6 (ix3 b n h) = hidden x0 x5 x6 b n h := by
  rw [val_main_v13_apply, val_main_v12_apply, val_main_v9_apply, val_main_v11_apply, val_main_v10_apply,
    val_main_call1_v0_apply, val_main_call1_cst_apply]
  have el : ∀ k : Fin 512, lidx_main_v9 (ix3 b n h) k = ix3 b n k := fun k => funext fun a => Fin.ext (by
    match a with | ⟨0, _⟩ => rfl | ⟨1, _⟩ => rfl | ⟨2, _⟩ => rfl)
  have er : ∀ k : Fin 512, ridx_main_v9 (ix3 b n h) k = ix2 h k := fun k => funext fun a => Fin.ext (by
    match a with | ⟨0, _⟩ => rfl | ⟨1, _⟩ => rfl)
  have eb : idx_main_v10 (idx_main_v11 (ix3 b n h)) = ix1 h := funext fun a => Fin.ext (by
    match a with | ⟨0, _⟩ => rfl)
  simp only [el, er, eb]
  show max ((∑ k : Fin 512, x0 (ix3 b n k) * x5 (ix2 h k)) + x6 (ix1 h)) (Ideal.ofBits .f32 0x00000000#32) = _
  rw [Ideal.ofBits_zero_f32]
  rfl

/-- The first perceptron's output at (b, n, d) is the value row. -/
theorem v8_eq (b : Fin 8) (n : Fin 2048) (d : Fin 512) :
    val_main_v8 (F := Ideal) x0 x1 x2 x3 x4 (ix3 b n d) = values x0 x1 x2 x3 x4 b n d := by
  rw [val_main_v8_apply, val_main_v5_apply, val_main_v7_apply, val_main_v6_apply]
  have el : ∀ k : Fin 2048, lidx_main_v5 (ix3 b n d) k = ix3 b n k := fun k => funext fun a => Fin.ext (by
    match a with | ⟨0, _⟩ => rfl | ⟨1, _⟩ => rfl | ⟨2, _⟩ => rfl)
  have er : ∀ k : Fin 2048, ridx_main_v5 (ix3 b n d) k = ix2 d k := fun k => funext fun a => Fin.ext (by
    match a with | ⟨0, _⟩ => rfl | ⟨1, _⟩ => rfl)
  have eb : idx_main_v6 (idx_main_v7 (ix3 b n d)) = ix1 d := funext fun a => Fin.ext (by
    match a with | ⟨0, _⟩ => rfl)
  simp only [el, er, eb, v4_eq]
  rfl

/-- The second perceptron's output at (b, n, o), o one of its 256 columns. -/
theorem v17_eq (b : Fin 8) (n : Fin 2048) (o : Fin 256) :
    val_main_v17 (F := Ideal) x0 x5 x6 x7 x8 (ix3 b n o) = perceptron x0 x5 x6 x7 x8 b n o := by
  rw [val_main_v17_apply, val_main_v14_apply, val_main_v16_apply, val_main_v15_apply]
  have el : ∀ k : Fin 2048, lidx_main_v14 (ix3 b n o) k = ix3 b n k := fun k => funext fun a => Fin.ext (by
    match a with | ⟨0, _⟩ => rfl | ⟨1, _⟩ => rfl | ⟨2, _⟩ => rfl)
  have er : ∀ k : Fin 2048, ridx_main_v14 (ix3 b n o) k = ix2 o k := fun k => funext fun a => Fin.ext (by
    match a with | ⟨0, _⟩ => rfl | ⟨1, _⟩ => rfl)
  have eb : idx_main_v15 (idx_main_v16 (ix3 b n o)) = ix1 o := funext fun a => Fin.ext (by
    match a with | ⟨0, _⟩ => rfl)
  simp only [el, er, eb, v13_eq]
  rfl

/-- The keys are the second perceptron's columns 0..127. -/
theorem v18_eq (b : Fin 8) (n : Fin 2048) (k : Fin 128) :
    val_main_v18 (F := Ideal) x0 x5 x6 x7 x8 (ix3 b n k) = keys x0 x5 x6 x7 x8 b n k := by
  rw [val_main_v18_apply]
  have e : idx_main_v18 (ix3 b n k) = ix3 b n (⟨k.val, by omega⟩ : Fin 256) := funext fun a => Fin.ext (by
    match a with | ⟨0, _⟩ => rfl | ⟨1, _⟩ => rfl | ⟨2, _⟩ => rfl)
  rw [e, v17_eq]
  rfl

/-- The queries are the second perceptron's columns 128..255. -/
theorem v19_eq (b : Fin 8) (n : Fin 2048) (k : Fin 128) :
    val_main_v19 (F := Ideal) x0 x5 x6 x7 x8 (ix3 b n k) = queries x0 x5 x6 x7 x8 b n k := by
  rw [val_main_v19_apply]
  have e : idx_main_v19 (ix3 b n k) = ix3 b n (⟨128 + k.val, by omega⟩ : Fin 256) := funext fun a => Fin.ext (by
    match a with | ⟨0, _⟩ => rfl | ⟨1, _⟩ => rfl | ⟨2, _⟩ => rfl)
  rw [e, v17_eq]
  rfl

/-! ## The attention -/

/-- The score of query row n against key row m. -/
theorem v20_eq (b : Fin 8) (n m : Fin 2048) :
    val_main_v20 (F := Ideal) x0 x5 x6 x7 x8 (ix3 b n m)
      = score (queries x0 x5 x6 x7 x8) (keys x0 x5 x6 x7 x8) b n m := by
  rw [val_main_v20_apply]
  have el : ∀ k : Fin 128, lidx_main_v20 (ix3 b n m) k = ix3 b n k := fun k => funext fun a => Fin.ext (by
    match a with | ⟨0, _⟩ => rfl | ⟨1, _⟩ => rfl | ⟨2, _⟩ => rfl)
  have er : ∀ k : Fin 128, ridx_main_v20 (ix3 b n m) k = ix3 b m k := fun k => funext fun a => Fin.ext (by
    match a with | ⟨0, _⟩ => rfl | ⟨1, _⟩ => rfl | ⟨2, _⟩ => rfl)
  simp only [el, er, v19_eq, v18_eq]
  rfl

/-- The reduction with maximum over the key axis, at (b, n), is the row's largest score from -∞. -/
theorem v21_eq (b : Fin 8) (n : Fin 2048) :
    val_main_v21 (F := Ideal) x0 x5 x6 x7 x8 (ix2 b n)
      = rowMax (queries x0 x5 x6 x7 x8) (keys x0 x5 x6 x7 x8) b n := by
  have h : S8x2048x2048.Reduces [2] S8x2048 := by decide
  unfold val_main_v21
  refine (Host.reduce_eq_fold_single _ _ _ reducesTo_S8x2048x2048_S8x2048_d2 h h_S_ (ix2 b n)).trans ?_
  have hinit : val_main_cst (F := Ideal) (Shape.Idx.first h_S_) = (⊥ : EReal) := by
    show Ideal.ofBits .f32 0xFF800000#32 = ⊥
    simp [Ideal.ofBits, Ideal.ieee]
  have hf : (val_main_v20 (F := Ideal) x0 x5 x6 x7 x8 ∘ h.lift (ix2 b n))
      = fun m : Fin 2048 => score (queries x0 x5 x6 x7 x8) (keys x0 x5 x6 x7 x8) b n m := funext fun (m : Fin 2048) => by
    have e : h.lift (ix2 b n) m = ix3 b n m := funext fun a => Fin.ext (by
      match a with | ⟨0, _⟩ => rfl | ⟨1, _⟩ => rfl | ⟨2, _⟩ => rfl)
    show val_main_v20 (F := Ideal) x0 x5 x6 x7 x8 (h.lift (ix2 b n) m) = _
    rw [e, v20_eq]
  rw [hinit, hf]
  rfl

/-- The maximum of -∞ and the row maximum is the row maximum. -/
theorem v23_eq (b : Fin 8) (n : Fin 2048) :
    val_main_v23 (F := Ideal) x0 x5 x6 x7 x8 (ix2 b n)
      = rowMax (queries x0 x5 x6 x7 x8) (keys x0 x5 x6 x7 x8) b n := by
  rw [val_main_v23_apply, val_main_v22_apply, val_main_cst_0_apply, v21_eq]
  show max (Ideal.ofBits .f32 0xFF800000#32) _ = _
  have hinit : Ideal.ofBits .f32 0xFF800000#32 = (⊥ : EReal) := by simp [Ideal.ofBits, Ideal.ieee]
  rw [hinit]
  exact max_eq_right bot_le

/-- The exponential of the score less the row maximum is the unnormalised weight. -/
theorem v27_eq (b : Fin 8) (n m : Fin 2048) :
    val_main_v27 (F := Ideal) x0 x5 x6 x7 x8 (ix3 b n m)
      = weight (queries x0 x5 x6 x7 x8) (keys x0 x5 x6 x7 x8) b n m := by
  rw [val_main_v27_apply, val_main_v26_apply, val_main_v25_apply, val_main_v24_apply, v20_eq]
  have e : idx_main_v24 (idx_main_v25 (ix3 b n m)) = ix2 b n := funext fun a => Fin.ext (by
    match a with | ⟨0, _⟩ => rfl | ⟨1, _⟩ => rfl)
  rw [e, v23_eq]
  rfl

/-- The sum of the weights over the key axis, from 0, is their total. -/
theorem v28_eq (b : Fin 8) (n : Fin 2048) :
    val_main_v28 (F := Ideal) x0 x5 x6 x7 x8 (ix2 b n)
      = denom (queries x0 x5 x6 x7 x8) (keys x0 x5 x6 x7 x8) b n := by
  rw [val_main_v28_apply, val_main_cst_1_apply]
  have e : ∀ k : Fin 2048, idx_main_v28 (ix2 b n) k = ix3 b n k := fun k => funext fun a => Fin.ext (by
    match a with | ⟨0, _⟩ => rfl | ⟨1, _⟩ => rfl | ⟨2, _⟩ => rfl)
  simp only [e, v27_eq]
  show Ideal.ofBits .f32 0x00000000#32 + _ = _
  rw [Ideal.ofBits_zero_f32, zero_add]
  rfl

/-- The weight divided by the total. -/
theorem v31_eq (b : Fin 8) (n m : Fin 2048) :
    val_main_v31 (F := Ideal) x0 x5 x6 x7 x8 (ix3 b n m)
      = Ideal.div (weight (queries x0 x5 x6 x7 x8) (keys x0 x5 x6 x7 x8) b n m)
          (denom (queries x0 x5 x6 x7 x8) (keys x0 x5 x6 x7 x8) b n) := by
  rw [val_main_v31_apply, val_main_v30_apply, val_main_v29_apply, v27_eq]
  have e : idx_main_v29 (idx_main_v30 (ix3 b n m)) = ix2 b n := funext fun a => Fin.ext (by
    match a with | ⟨0, _⟩ => rfl | ⟨1, _⟩ => rfl)
  rw [e, v28_eq]
  rfl

end Stages

/-- The last stage of the reference, as a function of its nine arguments, is `resultDivideThenSum` of them. -/
theorem reference_eq (x0 : (⟨S8x2048x512, .f32⟩ : BufTy).Contents (Elt Ideal)) (x1 : (⟨S2048x512, .f32⟩ : BufTy).Contents (Elt Ideal))
    (x2 : (⟨S2048, .f32⟩ : BufTy).Contents (Elt Ideal)) (x3 : (⟨S512x2048, .f32⟩ : BufTy).Contents (Elt Ideal))
    (x4 : (⟨S512, .f32⟩ : BufTy).Contents (Elt Ideal)) (x5 : (⟨S2048x512, .f32⟩ : BufTy).Contents (Elt Ideal))
    (x6 : (⟨S2048, .f32⟩ : BufTy).Contents (Elt Ideal)) (x7 : (⟨S256x2048, .f32⟩ : BufTy).Contents (Elt Ideal))
    (x8 : (⟨S256, .f32⟩ : BufTy).Contents (Elt Ideal)) :
    val_main_v32 (F := Ideal) x0 x1 x2 x3 x4 x5 x6 x7 x8 = resultDivideThenSum x0 x1 x2 x3 x4 x5 x6 x7 x8 := by
  funext i
  obtain ⟨b, n, d, rfl⟩ : ∃ (b : Fin 8) (n : Fin 2048) (d : Fin 512), i = ix3 b n d := ⟨i 0, i 1, i 2, eq_ix3 i⟩
  rw [val_main_v32_apply]
  have el : ∀ k : Fin 2048, lidx_main_v32 (ix3 b n d) k = ix3 b n k := fun k => funext fun a => Fin.ext (by
    match a with | ⟨0, _⟩ => rfl | ⟨1, _⟩ => rfl | ⟨2, _⟩ => rfl)
  have er : ∀ k : Fin 2048, ridx_main_v32 (ix3 b n d) k = ix3 b k d := fun k => funext fun a => Fin.ext (by
    match a with | ⟨0, _⟩ => rfl | ⟨1, _⟩ => rfl | ⟨2, _⟩ => rfl)
  simp only [el, er, v31_eq, v8_eq]
  rfl

end Cert.ReferenceIdeal.RefValue

end
-- ==== Proof.lean ====
/-
  The kernel computes softmax(Q·Kᵀ)·E for the keys K, queries Q and values E of two perceptrons of x, in two calls:
  the perceptrons over flat rows, then the attention, whose weights exp(s − max s) are summed against the value rows
  and the sum is divided once by the weights' total. The reference divides every weight by the total first and then
  takes the weighted sum. Both programs' results are written as one function of the nine arguments
  (Proof/Spec.lean): the kernel's by reading each call's output array block by block (Proof/MlpArray.lean,
  Proof/AttnArray.lean) and threading the host's reshapes and transposes between them (Proof/KernelValue.lean), the
  reference's stage by stage (Proof/RefValue.lean). On the extended reals the two orders of normalising differ in
  general; under the precondition every input is a real number (Proof/Finite.lean), so every intermediate is real and
  the weights' total is a positive real, and there the two agree (Proof/Law.lean).

  The three frames are the generated ones (the reference's is its generated run with the result dropped); the four
  entries of the idealization's ledger are each the rule's statement: a change of float format there and back is the
  identity on the extended reals.
-/
import proofs.«406603_j84327387890091_3_alg».proof.Defs
import proofs.«406603_j84327387890091_3_alg».proof.Proof.Gen.Kernel
import proofs.«406603_j84327387890091_3_alg».proof.Proof.Gen.Kernel.Skeleton
import proofs.«406603_j84327387890091_3_alg».proof.Proof.Gen.Kernel.Launch
import proofs.«406603_j84327387890091_3_alg».proof.Proof.Gen.Kernel.Points
import proofs.«406603_j84327387890091_3_alg».proof.Proof.Gen.Kernel.Frame
import proofs.«406603_j84327387890091_3_alg».proof.Proof.Gen.KernelIdeal
import proofs.«406603_j84327387890091_3_alg».proof.Proof.Gen.KernelIdeal.Skeleton
import proofs.«406603_j84327387890091_3_alg».proof.Proof.Gen.KernelIdeal.Launch
import proofs.«406603_j84327387890091_3_alg».proof.Proof.Gen.KernelIdeal.Points
import proofs.«406603_j84327387890091_3_alg».proof.Proof.Gen.KernelIdeal.Frame
import proofs.«406603_j84327387890091_3_alg».proof.Proof.Gen.ReferenceIdeal
import proofs.«406603_j84327387890091_3_alg».proof.Proof.Gen.Pre_finite_inputs
import proofs.«406603_j84327387890091_3_alg».proof.Proof.Gen.ReferenceIdeal.Run
import proofs.«406603_j84327387890091_3_alg».proof.Proof.Gen.ReferenceIdeal.Read
import proofs.«406603_j84327387890091_3_alg».proof.Proof.Spec
import proofs.«406603_j84327387890091_3_alg».proof.Proof.Law
import proofs.«406603_j84327387890091_3_alg».proof.Proof.Finite
import proofs.«406603_j84327387890091_3_alg».proof.Proof.KernelRun
import proofs.«406603_j84327387890091_3_alg».proof.Proof.KernelValue
import proofs.«406603_j84327387890091_3_alg».proof.Proof.RefValue
import Idealize.ShloMosaic.Adequacy
import Idealize.ShloMosaic.Init

noncomputable section

namespace Cert.Proof

open Idealize.ShloMosaic Idealize.SL.Sem

/-- The printed kernel runs and leaves its arguments alone: the generated frame. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ledger's four entries: each exp quarter's change of format to bf16 and back, the identity at the extended reals. -/
theorem preserves : Cert.preserves_Kernel_KernelIdeal :=
  ⟨IdealRules.truncf_extf.statement _ _ _, IdealRules.truncf_extf.statement _ _ _, IdealRules.truncf_extf.statement _ _ _,
    IdealRules.truncf_extf.statement _ _ _⟩

/-- From memories agreeing on the arguments both idealized programs end with the same result: the kernel's is the
    attention normalised at the end, the reference's the attention with normalised weights, and on real inputs those are
    one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.resultSumThenDivide (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KernelValue.result_eq m ρ c), (h c).2⟩)
      (Cert.KernelIdeal.GenRun.run (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8⟩ := hagree c
    obtain ⟨r0, r1, r2, r3, r4, r5, r6, r7, r8⟩ := Cert.Finite.real_of_pre _ _ _ _ _ _ _ _ _ (hpre c)
    rw [(h c).1, Cert.ReferenceIdeal.Read.val_main_v32_eq, Cert.ReferenceIdeal.RefValue.reference_eq, a0, a1, a2, a3, a4, a5, a6, a7, a8]
    exact (Cert.Spec.result_eq_of_real _ _ _ _ _ _ _ _ _ r0 r1 r2 r3 r4 r5 r6 r7 r8).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
